-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x256 : Shape := ⟨3, ![512, 1024, 256]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S_ : Shape := ⟨0, ![]⟩

class Facts : Prop where
  bcast_S_S512x1024x256 : S_.BroadcastsInDim S512x1024x256 (![] : Fin 0 → Fin S512x1024x256.rank)
  reducesTo_S512x1024x256_S_d0_1_2 : S512x1024x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_v28 : IVec S_ 1) (main_v33 : IVec S512x128 1) : IVec S_ 1 :=
  let main_c_12 : IVec S_ 1 := constantI S_ 1 1#1
  let main_v34 : IVec S_ 1 := (fun x v => Host.reduce IntOp.andi x v reducesTo_S512x128_S_d0_1 h_S_) main_v33 main_c_12
  let main_v35 : IVec S_ 1 := andi main_v28 main_v34
  main_v35

def fn_part1 {F : FTy → Type} [FloatOps F] (main_arg2 : IVec S512x128 32) (main_arg5 : FVec F S512x512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S512x128 32 := broadcastInDim S512x128 ![] bcast_S_S512x128 main_c_10
  let main_v30 : IVec S512x128 1 := cmpi .sge main_arg2 main_v29
  let main_c_11 : IVec S_ 32 := constantI S_ 32 1024#32
  let main_v31 : IVec S512x128 32 := broadcastInDim S512x128 ![] bcast_S_S512x128 main_c_11
  let main_v32 : IVec S512x128 1 := cmpi .slt main_arg2 main_v31
  let main_v33 : IVec S512x128 1 := andi main_v30 main_v32
  fn_part2 (F := F) main_v28 main_v33

def fn {F : FTy → Type} [FloatOps F] (main_arg0 : FVec F S512x1024x256 .f32) (main_arg1 : FVec F S512x256 .f32) (main_arg2 : IVec S512x128 32) (main_arg3 : FVec F S512x512 .f32) (main_arg4 : FVec F S512 .f32) (main_arg5 : FVec F S512x512 .f32) (main_arg6 : FVec F S512 .f32) : IVec S_ 1 :=
  let main_v0 : FVec F S512x1024x256 .f32 := Host.absf main_arg0
  let main_cst : FVec F S_ .f32 := constant S_ .f32 0x7F800000#32
  let main_v1 : FVec F S512x1024x256 .f32 := broadcastInDim S512x1024x256 ![] bcast_S_S512x1024x256 main_cst
  let main_v2 : IVec S512x1024x256 1 := cmpf .olt main_v0 main_v1
  let main_c : IVec S_ 1 := constantI S_ 1 1#1
  let main_v3 : IVec S_ 1 := (fun x v => Host.reduce IntOp.andi x v reducesTo_S512x1024x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_v13 main_v16
-- ==== Kernel.lean ====
abbrev S512x1024x256 : Shape := ⟨3, ![512, 1024, 256]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S_ : Shape := ⟨0, ![]⟩
abbrev S65536x512 : Shape := ⟨2, ![65536, 512]⟩
abbrev S8x1024x256 : Shape := ⟨3, ![8, 1024, 256]⟩
abbrev S8x128 : Shape := ⟨2, ![8, 128]⟩
abbrev S8x256 : Shape := ⟨2, ![8, 256]⟩
abbrev S1024x512 : Shape := ⟨2, ![1024, 512]⟩
abbrev S8x128x1024 : Shape := ⟨3, ![8, 128, 1024]⟩
abbrev S8x128x1 : Shape := ⟨3, ![8, 128, 1]⟩
abbrev S8x128x256 : Shape := ⟨3, ![8, 128, 256]⟩
abbrev S1024x256 : Shape := ⟨2, ![1024, 256]⟩
abbrev S8x512 : Shape := ⟨2, ![8, 512]⟩
abbrev S8x1x512 : Shape := ⟨3, ![8, 1, 512]⟩
abbrev S8x128x512 : Shape := ⟨3, ![8, 128, 512]⟩
abbrev S1x512 : Shape := ⟨2, ![1, 512]⟩

abbrev nBuf : Space → Nat
  | .hbm => 18
  | .vmem => 13
  | .smem => 0
  | _ => 0

abbrev bufTy : (tb : Table) → Fin (tcTables nBuf tb) → BufTy
  | .hbm, ⟨0, _⟩ => ⟨S512x1024x256, .f32⟩
  | .hbm, ⟨1, _⟩ => ⟨S512x256, .f32⟩
  | .hbm, ⟨2, _⟩ => ⟨S512x128, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512x128, .i32⟩
  | .hbm, ⟨11, _⟩ => ⟨S512x128, .i32⟩
  | .hbm, ⟨12, _⟩ => ⟨S_, .i32⟩
  | .hbm, ⟨13, _⟩ => ⟨S512x128, .i32⟩
  | .hbm, ⟨14, _⟩ => ⟨S512x128, .i32⟩
  | .hbm, ⟨15, _⟩ => ⟨S512x256, .f32⟩
  | .hbm, ⟨16, _⟩ => ⟨S512x256, .f32⟩
  | .hbm, ⟨17, _⟩ => ⟨S65536x512, .f32⟩
  | .local _ .vmem, ⟨0, _⟩ => ⟨S8x1024x256, .f32⟩
  | .local _ .vmem, ⟨1, _⟩ => ⟨S8x1024x256, .f32⟩
  | .local _ .vmem, ⟨2, _⟩ => ⟨S8x128, .i32⟩
  | .local _ .vmem, ⟨3, _⟩ => ⟨S8x128, .i32⟩
  | .local _ .vmem, ⟨4, _⟩ => ⟨S8x256, .f32⟩
  | .local _ .vmem, ⟨5, _⟩ => ⟨S8x256, .f32⟩
  | .local _ .vmem, ⟨6, _⟩ => ⟨S512x256, .f32⟩
  | .local _ .vmem, ⟨7, _⟩ => ⟨S512x256, .f32⟩
  | .local _ .vmem, ⟨8, _⟩ => ⟨S512, .f32⟩
  | .local _ .vmem, ⟨9, _⟩ => ⟨S512x512, .f32⟩
  | .local _ .vmem, ⟨10, _⟩ => ⟨S512, .f32⟩
  | .local _ .vmem, ⟨11, _⟩ => ⟨S1024x512, .f32⟩
  | .local _ .vmem, ⟨12, _⟩ => ⟨S1024x512, .f32⟩
  | _, _ => ⟨S512x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S512x128 : S_.BroadcastsInDim S512x128 (![] : Fin 0 → Fin S512x128.rank)
  slices_S512x512_S512x256_0_0 : S512x512.Slices ![0, 0] S512x256
  slices_S512x512_S512x256_0_256 : S512x512.Slices ![0, 256] S512x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S8x128x1024_d2_w32 : S8x128x1024.Iotas .tc 32 [2]
  shapeCasts_S8x128_S8x128x1 : S8x128.ShapeCasts S8x128x1
  broadcasts_S8x128x1_S8x128x1024 : S8x128x1.Broadcasts S8x128x1024
  natLt_1_32 : 1 < 32
  bitsLt_bf16_f32 : FTy.bits .bf16 < FTy.bits .f32
  inb_S8x1024x256_S8x1024x256_0_0_0 : ∀ a, (![0, 0, 0] : Fin 3 → Nat) a + S8x1024x256.size a ≤ S8x1024x256.size a
  h_S8x1024x256 : 0 < S8x1024x256.numel
  shapeCasts_S8x128x256_S1024x256 : S8x128x256.ShapeCasts S1024x256
  inb_S8x256_S8x256_0_0 : ∀ a, (![0, 0] : Fin 2 → Nat) a + S8x256.size a ≤ S8x256.size a
  h_S8x256 : 0 < S8x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  dot_S8x128x1024_S8x1024x256_S8x128x256_2_1_1_2_0_0_wf : DotDims.WF S8x128x1024 S8x1024x256 S8x128x256 [2] [1] [1] [2] [0] [0]
  dot_S1024x256_S512x256_S1024x512_1_1_0_0_n_n_wf : DotDims.WF S1024x256 S512x256 S1024x512 [1] [1] [0] [0] [] []
  dot_S8x256_S512x256_S8x512_1_1_0_0_n_n_wf : DotDims.WF S8x256 S512x256 S8x512 [1] [1] [0] [0] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S512x1024x256.size a
  hwx0_0 : ∀ i : grid0.Coords, EltTy.bits .f32 = 32 ∨ (Rect.block (s := S512x1024x256) S8x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S512x128.size a
  hwx0_1 : ∀ i : grid0.Coords, EltTy.bits .i32 = 32 ∨ (Rect.block (s := S512x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S512x256.size a
  hwx0_2 : ∀ i : grid0.Coords, EltTy.bits .f32 = 32 ∨ (Rect.block (s := S512x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S65536x512.size a
  hwx0_8 : ∀ i : grid0.Coords, EltTy.bits .f32 = 32 ∨ (Rect.block (s := S65536x512) S1024x512.size (cc0_transform_8 i) (hinb0_8 i)).WholeWords (EltTy.packing .f32)

variable [Facts₀]

def dot_S8x128x1024_S8x1024x256_S8x128x256_2_1_1_2_0_0 : DotDims S8x128x1024 S8x1024x256 S8x128x256 where
  lhsContracting := [2]
  rhsContracting := [1]
  lhsNonContracting := [1]
  rhsNonContracting := [2]
  lhsBatch := [0]
  rhsBatch := [0]
  wf := dot_S8x128x1024_S8x1024x256_S8x128x256_2_1_1_2_0_0_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S8x256_S512x256_S8x512_1_1_0_0_n_n : DotDims S8x256 S512x256 S8x512 where
  lhsContracting := [1]
  rhsContracting := [1]
  lhsNonContracting := [0]
  rhsNonContracting := [0]
  lhsBatch := []
  rhsBatch := []
  wf := dot_S8x256_S512x256_S8x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x1024x256 : Shape := ⟨3, ![512, 1024, 256]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x128x1 : Shape := ⟨3, ![512, 128, 1]⟩
abbrev S_ : Shape := ⟨0, ![]⟩
abbrev S1 : Shape := ⟨1, ![1]⟩
abbrev S1x1x1 : Shape := ⟨3, ![1, 1, 1]⟩
abbrev S512x128x256 : Shape := ⟨3, ![512, 128, 256]⟩
abbrev S512x1x256 : Shape := ⟨3, ![512, 1, 256]⟩
abbrev S512x128x512 : Shape := ⟨3, ![512, 128, 512]⟩
abbrev S1x1x512 : Shape := ⟨3, ![1, 1, 512]⟩
abbrev S65536x512 : Shape := ⟨2, ![65536, 512]⟩

abbrev nBuf : Space → Nat
  | .hbm => 45
  | .vmem => 0
  | .smem => 0
  | _ => 0

abbrev bufTy : (tb : Table) → Fin (tcTables nBuf tb) → BufTy
  | .hbm, ⟨0, _⟩ => ⟨S512x1024x256, .f32⟩
  | .hbm, ⟨1, _⟩ => ⟨S512x256, .f32⟩
  | .hbm, ⟨2, _⟩ => ⟨S512x128, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x128x1, .i32⟩
  | .hbm, ⟨8, _⟩ => ⟨S_, .i32⟩
  | .hbm, ⟨9, _⟩ => ⟨S512x128x1, .i32⟩
  | .hbm, ⟨10, _⟩ => ⟨S512x128x1, .i1⟩
  | .hbm, ⟨11, _⟩ => ⟨S_, .i32⟩
  | .hbm, ⟨12, _⟩ => ⟨S512x128x1, .i32⟩
  | .hbm, ⟨13, _⟩ => ⟨S512x128x1, .i32⟩
  | .hbm, ⟨14, _⟩ => ⟨S512x128x1, .i32⟩
  | .hbm, ⟨15, _⟩ => ⟨S1, .i32⟩
  | .hbm, ⟨16, _⟩ => ⟨S_, .i32⟩
  | .hbm, ⟨17, _⟩ => ⟨S512x128x1, .i32⟩
  | .hbm, ⟨18, _⟩ => ⟨S512x128x1, .i1⟩
  | .hbm, ⟨19, _⟩ => ⟨S1x1x1, .i32⟩
  | .hbm, ⟨20, _⟩ => ⟨S512x128x1, .i32⟩
  | .hbm, ⟨21, _⟩ => ⟨S512x128x1, .i1⟩
  | .hbm, ⟨22, _⟩ => ⟨S512x128x1, .i1⟩
  | .hbm, ⟨23, _⟩ => ⟨S_, .i1⟩
  | .hbm, ⟨24, _⟩ => ⟨S512x128, .i1⟩
  | .hbm, ⟨25, _⟩ => ⟨S512x128x256, .f32⟩
  | .hbm, ⟨26, _⟩ => ⟨S512x128x256, .i1⟩
  | .hbm, ⟨27, _⟩ => ⟨S_, .f32⟩
  | .hbm, ⟨28, _⟩ => ⟨S512x128x256, .f32⟩
  | .hbm, ⟨29, _⟩ => ⟨S512x128x256, .f32⟩
  | .hbm, ⟨30, _⟩ => ⟨S512x1x256, .f32⟩
  | .hbm, ⟨31, _⟩ => ⟨S512x128x256, .f32⟩
  | .hbm, ⟨32, _⟩ => ⟨S512x128x512, .f32⟩
  | .hbm, ⟨33, _⟩ => ⟨S512x128x512, .f32⟩
  | .hbm, ⟨34, _⟩ => ⟨S1x1x512, .f32⟩
  | .hbm, ⟨35, _⟩ => ⟨S512x128x512, .f32⟩
  | .hbm, ⟨36, _⟩ => ⟨S512x128x512, .f32⟩
  | .hbm, ⟨37, _⟩ => ⟨S_, .f32⟩
  | .hbm, ⟨38, _⟩ => ⟨S512x128x512, .f32⟩
  | .hbm, ⟨39, _⟩ => ⟨S512x128x512, .f32⟩
  | .hbm, ⟨40, _⟩ => ⟨S512x128x512, .f32⟩
  | .hbm, ⟨41, _⟩ => ⟨S1x1x512, .f32⟩
  | .hbm, ⟨42, _⟩ => ⟨S512x128x512, .f32⟩
  | .hbm, ⟨43, _⟩ => ⟨S512x128x512, .f32⟩
  | .hbm, ⟨44, _⟩ => ⟨S65536x512, .f32⟩
  | _, _ => ⟨S512x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩

abbrev nD : Nat := 1
abbrev τ : Topo := Topo.v7x

variable {F : FTy → Type} [FloatOps F]

class Facts₀ : Prop where
  bcast_S512x128_S512x128x1_0_1 : S512x128.BroadcastsInDim S512x128x1 (![0, 1] : Fin 2 → Fin S512x128x1.rank)
  bcast_S_S512x128x1 : S_.BroadcastsInDim S512x128x1 (![] : Fin 0 → Fin S512x128x1.rank)
  bcast_S1_S1x1x1_2 : S1.BroadcastsInDim S1x1x1 (![2] : Fin 1 → Fin S1x1x1.rank)
  bcast_S1x1x1_S512x128x1_0_1_2 : S1x1x1.BroadcastsInDim S512x128x1 (![0, 1, 2] : Fin 3 → Fin S512x128x1.rank)
  reducesTo_S512x128x1_S512x128_d2 : S512x128x1.ReducesTo [2] S512x128
  h_S_ : 0 < S_.numel
  bcast_S512x128_S512x128x256_0_1 : S512x128.BroadcastsInDim S512x128x256 (![0, 1] : Fin 2 → Fin S512x128x256.rank)
  bcast_S_S512x128x256 : S_.BroadcastsInDim S512x128x256 (![] : Fin 0 → Fin S512x128x256.rank)
  bcast_S512x256_S512x1x256_0_2 : S512x256.BroadcastsInDim S512x1x256 (![0, 2] : Fin 2 → Fin S512x1x256.rank)
  bcast_S512x1x256_S512x128x256_0_1_2 : S512x1x256.BroadcastsInDim S512x128x256 (![0, 1, 2] : Fin 3 → Fin S512x128x256.rank)
  concatenates_S512x128x256_S512x128x256_S512x128x512_d2 : Shape.Concatenates [S512x128x256, S512x128x256] S512x128x512 2
  bcast_S512_S1x1x512_2 : S512.BroadcastsInDim S1x1x512 (![2] : Fin 1 → Fin S1x1x512.rank)
  bcast_S1x1x512_S512x128x512_0_1_2 : S1x1x512.BroadcastsInDim S512x128x512 (![0, 1, 2] : Fin 3 → Fin S512x128x512.rank)
  bcast_S_S512x128x512 : S_.BroadcastsInDim S512x128x512 (![] : Fin 0 → Fin S512x128x512.rank)
  shapeCasts_S512x128x512_S65536x512 : S512x128x512.ShapeCasts S65536x512
  gather_S512x1024x256_S512x128x1_S512x128x256_2_1_0_0_1_2_11256_wf : GatherDims.WF S512x1024x256 S512x128x1 S512x128x256 [2] [1] [0] [1] [0] 2 ![1, 1, 256]
  dot_S512x128x512_S512x512_S512x128x512_2_1_01_0_n_n_wf : DotDims.WF S512x128x512 S512x512 S512x128x512 [2] [1] [0, 1] [0] [] []

variable [Facts₀]

def gather_S512x1024x256_S512x128x1_S512x128x256_2_1_0_0_1_2_11256 : GatherDims S512x1024x256 S512x128x1 S512x128x256 where
  offsetDims := [2]
  collapsedSliceDims := [1]
  operandBatchingDims := [0]
  startIndicesBatchingDims := [0]
  startIndexMap := [1]
  indexVectorDim := 2
  sliceSizes := ![1, 1, 256]
  wf := gather_S512x1024x256_S512x128x1_S512x128x256_2_1_0_0_1_2_11256_wf
def dot_S512x128x512_S512x512_S512x128x512_2_1_01_0_n_n : DotDims S512x128x512 S512x512 S512x128x512 where
  lhsContracting := [2]
  rhsContracting := [1]
  lhsNonContracting := [0, 1]
  rhsNonContracting := [0]
  lhsBatch := []
  rhsBatch := []
  wf := dot_S512x128x512_S512x512_S512x128x512_2_1_01_0_n_n_wf

class Facts : Prop extends Facts₀ where

variable [Facts]
-- ==== Proof.Spec.lean ====
/-
  The mathematics both programs compute, stated once, away from either program.

  For batch row `b` and masked position `p` the operator gathers the row `X[b, idx[b, p], :]` (256 numbers), joins the
  molecule vector `molvec[b, :]` (256 numbers) to it, and applies a two-layer perceptron: `fc1` (512 × 512, bias `b1`),
  `max · 0`, `fc2` (512 × 512, bias `b2`). `entry` is one output number of that perceptron, with `fc1`'s 512-long inner
  product already written as the sum of its two 256-long halves (the gathered half against the first 256 columns of `W1`, the
  molecule half against the last 256): on the extended reals addition is associative and commutative without any finiteness
  hypothesis, so the split costs nothing (`sum_halves`). `G` lays the entries out as the [65536, 512] result: row `r` is
  batch row `r / 128`, position `r % 128`.

  The gather itself is a sum in one program: `∑ n, [n = idx] · X[b, n, :]`. A one-hot weight picks its term
  (`sum_onehot`): `0 · x = 0` and `1 · x = x` for every extended real `x`, infinities included.
-/
import Idealize.ShloMosaic.Lib.ValueIdx

noncomputable section

open scoped BigOperators

namespace Cert.Spec

open Idealize.ShloMosaic Idealize.ShloMosaic.ValueIdx

/-- The row of `X` an index word selects: its value as a natural number, capped at the last row, 1023. (For a word in
    `[0, 1024)` this is the word itself; the cap only makes the function total.) -/
def row (w : BitVec 32) : Fin 1024 := ⟨min w.toNat 1023, by omega⟩

theorem row_val_of_lt {w : BitVec 32} (h : w.toNat < 1024) : (row w).val = w.toNat := by
  show min w.toNat 1023 = w.toNat; omega

/-- The float zero the rectifier compares against, as both programs spell it: the word `0x00000000`, never evaluated. -/
abbrev zero32 : EReal := Ideal.ofBits .f32 0x00000000#32

/-- ONE OUTPUT NUMBER. `g` is the gathered row, `u` the molecule row; `wa`, `wb` the two column halves of `W1`
    (`wa i d = W1[i, d]`, `wb i d = W1[i, 256 + d]`); `w2 = W2`. Output feature `o` is
    `∑ᵢ max ((∑_d g d · wa i d) + (∑_d u d · wb i d) + b1 i) 0 · w2 o i + b2 o`. -/
def entry (g u : Fin 256 → EReal) (wa wb : Fin 512 → Fin 256 → EReal) (b1 : Fin 512 → EReal)
    (w2 : Fin 512 → Fin 512 → EReal) (b2 : Fin 512 → EReal) (o : Fin 512) : EReal :=
  (∑ i : Fin 512, max ((∑ d : Fin 256, g d * wa i d) + (∑ d : Fin 256, u d * wb i d) + b1 i) zero32 * w2 o i) + b2 o

/-- Column `d` of the first half of a 512-long axis. -/
abbrev lo (d : Fin 256) : Fin 512 := ⟨d.val, by omega⟩
/-- Column `d` of the second half: `256 + d`. -/
abbrev hi (d : Fin 256) : Fin 512 := ⟨256 + d.val, by omega⟩

/-- Batch row of result row `r`. -/
abbrev rowB (r : Fin 65536) : Fin 512 := ⟨r.val / 128, by omega⟩
/-- Masked position of result row `r`. -/
abbrev rowP (r : Fin 65536) : Fin 128 := ⟨r.val % 128, Nat.mod_lt _ (by decide)⟩

/-- THE RESULT as one function of the seven argument arrays, index by index. -/
def G (x0 : FVec Ideal ⟨3, ![512, 1024, 256]⟩ .f32) (x1 : FVec Ideal ⟨2, ![512, 256]⟩ .f32) (x2 : IVec ⟨2, ![512, 128]⟩ 32)
    (x3 : FVec Ideal ⟨2, ![512, 512]⟩ .f32) (x4 : FVec Ideal ⟨1, ![512]⟩ .f32) (x5 : FVec Ideal ⟨2, ![512, 512]⟩ .f32)
    (x6 : FVec Ideal ⟨1, ![512]⟩ .f32) : FVec Ideal ⟨2, ![65536, 512]⟩ .f32 := fun j =>
  entry (fun d => x0 (ix3 (rowB (j 0)) (row (x2 (ix2 (rowB (j 0)) (rowP (j 0))))) d)) (fun d => x1 (ix2 (rowB (j 0)) d))
    (fun i d => x3 (ix2 i (lo d))) (fun i d => x3 (ix2 i (hi d))) (fun i => x4 (ix1 i)) (fun o i => x5 (ix2 o i))
    (fun o => x6 (ix1 o)) (j 1)

/-- A 512-long sum is the sum of its two 256-long halves. -/
theorem sum_halves (f : Fin 512 → EReal) : ∑ k : Fin 512, f k = (∑ d : Fin 256, f (lo d)) + ∑ d : Fin 256, f (hi d) := by
  have h := Fin.sum_univ_add (a := 256) (b := 256) (fun k : Fin (256 + 256) => f ⟨k.val, k.isLt⟩)
  exact h

/-- A sum weighted by the indicator of one position is the term at that position, on all of the extended reals. -/
theorem sum_onehot {n : Nat} (s : Fin n) (f : Fin n → EReal) :
    ∑ k : Fin n, (if k = s then (1 : EReal) else 0) * f k = f s := by
  rw [Finset.sum_eq_single s]
  · rw [if_pos rfl, one_mul]
  · intro k _ hk; rw [if_neg hk, zero_mul]
  · intro h; exact absurd (Finset.mem_univ s) h

end Cert.Spec

end
-- ==== Proof.Range.lean ====
/-
  What the precondition says of the index array: every word of `idx_M`, read as a signed integer, lies in `[0, 1024)` —
  the rows of `X` it may name — and hence, read as a natural number, is below 1024.

  The printed precondition is a conjunction of seven `jnp.all`s; its last conjunct is
  `jnp.all((idx_M >= 0) & (idx_M < 1024))`. A conjunction of bits that is 1 has every conjunct 1, an `all` that is 1 has every
  element 1, and a signed comparison that is 1 is the comparison of the signed values.
-/
import proofs.«413704_j16913581212020_2_alg».proof.Pre_finite_inputs
import Idealize.ShloMosaic.Lib.ReduceAll
import Idealize.ShloMosaic.Lib.ValueIdx
import Idealize.ShloMosaic.Lib.StableHlo.Predicate

noncomputable section

namespace Cert.Pre_finite_inputs.Range

open Cert.Pre_finite_inputs Idealize.ShloMosaic

variable [Cert.Pre_finite_inputs.Facts]
open Cert.Pre_finite_inputs.Facts

/-- The scalar shape has one index. -/
instance : Subsingleton S_.Idx := ⟨fun a b => funext fun d => d.elim0⟩

/-- A 32-bit word whose signed value is in `[0, 1024)` has that value as its unsigned one. -/
theorem toNat_lt_of_toInt {w : BitVec 32} (h0 : (0#32 : BitVec 32).toInt ≤ w.toInt) (h1 : w.toInt < (1024#32 : BitVec 32).toInt) :
    w.toNat < 1024 := by
  have e0 : (0#32 : BitVec 32).toInt = 0 := by decide
  have e1 : (1024#32 : BitVec 32).toInt = 1024 := by decide
  rw [e0] at h0; rw [e1] at h1
  have hw := w.isLt
  rw [BitVec.toInt_eq_toNat_cond] at h0 h1
  split at h0 <;> omega

/-- Under the precondition every index word is below 1024. -/
theorem idx_lt {F : FTy → Type} [FloatOps F] (x0 : FVec F S512x1024x256 .f32) (x1 : FVec F S512x256 .f32) (x2 : IVec S512x128 32)
    (x3 : FVec F S512x512 .f32) (x4 : FVec F S512 .f32) (x5 : FVec F S512x512 .f32) (x6 : FVec F S512 .f32)
    (h : fn (F := F) x0 x1 x2 x3 x4 x5 x6 = fun _ => 1#1) (p : S512x128.Idx) : (x2 p).toNat < 1024 := by
  have h0 := congrFun h ValueIdx.ix0
  dsimp only [fn, fn_part1, fn_part2] at h0
  obtain ⟨-, h1⟩ := IntOp.andi_eq_one.1 h0
  have h2 := Host.reduce_andi_all _ _ _ _ _ h1 p
  obtain ⟨hge, hlt⟩ := IntOp.andi_eq_one.1 h2
  exact toNat_lt_of_toInt (IntOp.cmpi_sge.1 hge) (IntOp.cmpi_slt.1 hlt)

end Cert.Pre_finite_inputs.Range

end
-- ==== Proof.KernelPayload.lean ====
/-
  The kernel body's arithmetic read at one output position.

  Block row `r = q·128 + p` is batch row `q` of the tile, masked position `p`. The body builds the one-hot weights
  `[n = idx[q, p]]` (a position counter compared with the index word, the comparison bit widened and converted: exactly `1` or
  `0`), multiplies them against the block of `X` (a batched product over the 1024 rows: the gather as a sum), takes the result
  against the first 256 columns of `W1`, adds the molecule row against the last 256 columns and the bias, caps below by zero,
  and applies the second layer. On the extended reals every narrowing is the identity and each product read at an index is a
  plain finite sum, so one output number is `Spec.entry` of the gathered row written as that one-hot sum.
-/
import proofs.«413704_j16913581212020_2_alg».proof.Proof.Gen.KernelIdeal.Skeleton
import proofs.«413704_j16913581212020_2_alg».proof.Proof.Spec
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Pointwise operations at an index, on the extended reals

    On the extended reals narrowing to bf16 is the identity, `maximumf` is `max` and `addf` is `+`, each by definition. -/

theorem trunc_apply {s : Shape} (a : FVec Ideal s .f32) (h : FTy.bits .bf16 < FTy.bits .f32) (i : s.Idx) :
    @Eq EReal ((truncf .bf16 a h : FVec Ideal s .bf16) i) (a i) := rfl
theorem max_apply {s : Shape} (a b : FVec Ideal s .f32) (i : s.Idx) : @Eq EReal (maximumf a b i) (max (a i) (b i)) := rfl
theorem add_apply {s : Shape} (a b : FVec Ideal s .f32) (i : s.Idx) : @Eq EReal (addf a b i) (a i + b i) := rfl

/-! The batched dot `dot_S8x128x1024_S8x1024x256_S8x128x256_2_1_1_2_0_0`: batch axis 0 of both operands, the left operand's axis 2 against the right operand's axis 1. -/
theorem mmB_l0 (j : S8x128x256.Idx) (k : dot_S8x128x1024_S8x1024x256_S8x128x256_2_1_1_2_0_0.contr.Idx) : (dot_S8x128x1024_S8x1024x256_S8x128x256_2_1_1_2_0_0.lhsIdx j k 0).val = (j 0).val := by
  unfold DotDims.lhsIdx
  rw [dif_pos (show (0 : Fin S8x128x1024.rank) ∈ dot_S8x128x1024_S8x1024x256_S8x128x256_2_1_1_2_0_0.lhsBatch by decide)]
  rfl
theorem mmB_l1 (j : S8x128x256.Idx) (k : dot_S8x128x1024_S8x1024x256_S8x128x256_2_1_1_2_0_0.contr.Idx) : (dot_S8x128x1024_S8x1024x256_S8x128x256_2_1_1_2_0_0.lhsIdx j k 1).val = (j 1).val := by
  unfold DotDims.lhsIdx
  rw [dif_neg (show ¬(1 : Fin S8x128x1024.rank) ∈ dot_S8x128x1024_S8x1024x256_S8x128x256_2_1_1_2_0_0.lhsBatch by decide), dif_pos (show (1 : Fin S8x128x1024.rank) ∈ dot_S8x128x1024_S8x1024x256_S8x128x256_2_1_1_2_0_0.lhsNonContracting by decide)]
  rfl
theorem mmB_l2 (j : S8x128x256.Idx) (k : dot_S8x128x1024_S8x1024x256_S8x128x256_2_1_1_2_0_0.contr.Idx) : (dot_S8x128x1024_S8x1024x256_S8x128x256_2_1_1_2_0_0.lhsIdx j k 2).val = (k ⟨0, by decide⟩).val :=
  dot_S8x128x1024_S8x1024x256_S8x128x256_2_1_1_2_0_0.lhsIdx_val_of_single rfl j k
theorem mmB_r0 (j : S8x128x256.Idx) (k : dot_S8x128x1024_S8x1024x256_S8x128x256_2_1_1_2_0_0.contr.Idx) : (dot_S8x128x1024_S8x1024x256_S8x128x256_2_1_1_2_0_0.rhsIdx j k 0).val = (j 0).val := by
  unfold DotDims.rhsIdx
  rw [dif_pos (show (0 : Fin S8x1024x256.rank) ∈ dot_S8x128x1024_S8x1024x256_S8x128x256_2_1_1_2_0_0.rhsBatch by decide)]
  rfl
theorem mmB_r1 (j : S8x128x256.Idx) (k : dot_S8x128x1024_S8x1024x256_S8x128x256_2_1_1_2_0_0.contr.Idx) : (dot_S8x128x1024_S8x1024x256_S8x128x256_2_1_1_2_0_0.rhsIdx j k 1).val = (k ⟨0, by decide⟩).val :=
  dot_S8x128x1024_S8x1024x256_S8x128x256_2_1_1_2_0_0.rhsIdx_val_of_single rfl j k
theorem mmB_r2 (j : S8x128x256.Idx) (k : dot_S8x128x1024_S8x1024x256_S8x128x256_2_1_1_2_0_0.contr.Idx) : (dot_S8x128x1024_S8x1024x256_S8x128x256_2_1_1_2_0_0.rhsIdx j k 2).val = (j 2).val := by
  unfold DotDims.rhsIdx
  rw [dif_neg (show ¬(2 : Fin S8x1024x256.rank) ∈ dot_S8x128x1024_S8x1024x256_S8x128x256_2_1_1_2_0_0.rhsBatch by decide), dif_pos (show (2 : Fin S8x1024x256.rank) ∈ dot_S8x128x1024_S8x1024x256_S8x128x256_2_1_1_2_0_0.rhsNonContracting by decide)]
  rfl
/-- Read at `(q, p, d)` into the zero accumulator it is `∑ₙ lhs[q, p, n] · rhs[q, n, d]`. -/
theorem mmB_apply {φ₁ φ₂ : FTy} (lhs : FVec Ideal S8x128x1024 φ₁) (rhs : FVec Ideal S8x1024x256 φ₂) (q : Fin 8) (p : Fin 128) (d : Fin 256) :
    matmul dot_S8x128x1024_S8x1024x256_S8x128x256_2_1_1_2_0_0 none lhs rhs (constant S8x128x256 .f32 0x00000000#32) (ix3 q p d)
      = ∑ n : Fin 1024, lhs (ix3 q p n) * rhs (ix3 q n d) := by
  simp only [matmul]
  rw [Ideal.matmul_constant_zero_apply, ← Equiv.sum_comp (ValueIdx.contrEquiv1 dot_S8x128x1024_S8x1024x256_S8x128x256_2_1_1_2_0_0 1024 rfl rfl).symm]
  refine Finset.sum_congr rfl fun n _ => ?_
  have hk := ValueIdx.contrEquiv1_symm_val dot_S8x128x1024_S8x1024x256_S8x128x256_2_1_1_2_0_0 1024 rfl rfl n
  have el : dot_S8x128x1024_S8x1024x256_S8x128x256_2_1_1_2_0_0.lhsIdx (ix3 q p d) ((ValueIdx.contrEquiv1 dot_S8x128x1024_S8x1024x256_S8x128x256_2_1_1_2_0_0 1024 rfl rfl).symm n) = ix3 q p n := funext fun a => Fin.ext (by
    match a with
    | ⟨0, _⟩ => exact mmB_l0 _ _
    | ⟨1, _⟩ => exact mmB_l1 _ _
    | ⟨2, _⟩ => exact (mmB_l2 _ _).trans hk)
  have er : dot_S8x128x1024_S8x1024x256_S8x128x256_2_1_1_2_0_0.rhsIdx (ix3 q p d) ((ValueIdx.contrEquiv1 dot_S8x128x1024_S8x1024x256_S8x128x256_2_1_1_2_0_0 1024 rfl rfl).symm n) = ix3 q n d := funext fun a => Fin.ext (by
    match a with
    | ⟨0, _⟩ => exact mmB_r0 _ _
    | ⟨1, _⟩ => exact (mmB_r1 _ _).trans hk
    | ⟨2, _⟩ => exact mmB_r2 _ _)
  rw [el, er]

/-! The dot `dot_S1024x256_S512x256_S1024x512_1_1_0_0_n_n`: rows of the left operand against rows of the right, contracted over the last axis of both. -/
theorem mmT_l0 (j : S1024x512.Idx) (k : dot_S1024x256_S512x256_S1024x512_1_1_0_0_n_n.contr.Idx) : (dot_S1024x256_S512x256_S1024x512_1_1_0_0_n_n.lhsIdx j k 0).val = (j 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem mmT_l1 (j : S1024x512.Idx) (k : dot_S1024x256_S512x256_S1024x512_1_1_0_0_n_n.contr.Idx) : (dot_S1024x256_S512x256_S1024x512_1_1_0_0_n_n.lhsIdx j k 1).val = (k ⟨0, by decide⟩).val :=
  dot_S1024x256_S512x256_S1024x512_1_1_0_0_n_n.lhsIdx_val_of_single rfl j k
theorem mmT_r0 (j : S1024x512.Idx) (k : dot_S1024x256_S512x256_S1024x512_1_1_0_0_n_n.contr.Idx) : (dot_S1024x256_S512x256_S1024x512_1_1_0_0_n_n.rhsIdx j k 0).val = (j 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem mmT_r1 (j : S1024x512.Idx) (k : dot_S1024x256_S512x256_S1024x512_1_1_0_0_n_n.contr.Idx) : (dot_S1024x256_S512x256_S1024x512_1_1_0_0_n_n.rhsIdx j k 1).val = (k ⟨0, by decide⟩).val :=
  dot_S1024x256_S512x256_S1024x512_1_1_0_0_n_n.rhsIdx_val_of_single rfl j k
/-- Read at `(r, c)` into the zero accumulator it is `∑ₖ lhs[r, k] · rhs[c, k]`. -/
theorem mmT_apply {φ₁ φ₂ : FTy} (lhs : FVec Ideal S1024x256 φ₁) (rhs : FVec Ideal S512x256 φ₂) (r : Fin 1024) (c : Fin 512) :
    matmul dot_S1024x256_S512x256_S1024x512_1_1_0_0_n_n none lhs rhs (constant S1024x512 .f32 0x00000000#32) (ix2 r c)
      = ∑ k : Fin 256, lhs (ix2 r k) * rhs (ix2 c k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 r c) ((ValueIdx.contrEquiv1 dot_S1024x256_S512x256_S1024x512_1_1_0_0_n_n 256 rfl rfl).symm k) = ix2 r k := funext fun a => Fin.ext (by
    match a with
    | ⟨0, _⟩ => exact mmT_l0 _ _
    | ⟨1, _⟩ => exact (mmT_l1 _ _).trans hk)
  have er : dot_S1024x256_S512x256_S1024x512_1_1_0_0_n_n.rhsIdx (ix2 r c) ((ValueIdx.contrEquiv1 dot_S1024x256_S512x256_S1024x512_1_1_0_0_n_n 256 rfl rfl).symm k) = ix2 c k := funext fun a => Fin.ext (by
    match a with
    | ⟨0, _⟩ => exact mmT_r0 _ _
    | ⟨1, _⟩ => exact (mmT_r1 _ _).trans hk)
  rw [el, er]

/-! The dot `dot_S8x256_S512x256_S8x512_1_1_0_0_n_n`: rows of the left operand against rows of the right, contracted over the last axis of both. -/
theorem mmM_l0 (j : S8x512.Idx) (k : dot_S8x256_S512x256_S8x512_1_1_0_0_n_n.contr.Idx) : (dot_S8x256_S512x256_S8x512_1_1_0_0_n_n.lhsIdx j k 0).val = (j 0).val := by
  unfold DotDims.lhsIdx
  rw [dif_neg (show ¬(0 : Fin S8x256.rank) ∈ dot_S8x256_S512x256_S8x512_1_1_0_0_n_n.lhsBatch by decide), dif_pos (show (0 : Fin S8x256.rank) ∈ dot_S8x256_S512x256_S8x512_1_1_0_0_n_n.lhsNonContracting by decide)]
  rfl
theorem mmM_l1 (j : S8x512.Idx) (k : dot_S8x256_S512x256_S8x512_1_1_0_0_n_n.contr.Idx) : (dot_S8x256_S512x256_S8x512_1_1_0_0_n_n.lhsIdx j k 1).val = (k ⟨0, by decide⟩).val :=
  dot_S8x256_S512x256_S8x512_1_1_0_0_n_n.lhsIdx_val_of_single rfl j k
theorem mmM_r0 (j : S8x512.Idx) (k : dot_S8x256_S512x256_S8x512_1_1_0_0_n_n.contr.Idx) : (dot_S8x256_S512x256_S8x512_1_1_0_0_n_n.rhsIdx j k 0).val = (j 1).val := by
  unfold DotDims.rhsIdx
  rw [dif_neg (show ¬(0 : Fin S512x256.rank) ∈ dot_S8x256_S512x256_S8x512_1_1_0_0_n_n.rhsBatch by decide), dif_pos (show (0 : Fin S512x256.rank) ∈ dot_S8x256_S512x256_S8x512_1_1_0_0_n_n.rhsNonContracting by decide)]
  rfl
theorem mmM_r1 (j : S8x512.Idx) (k : dot_S8x256_S512x256_S8x512_1_1_0_0_n_n.contr.Idx) : (dot_S8x256_S512x256_S8x512_1_1_0_0_n_n.rhsIdx j k 1).val = (k ⟨0, by decide⟩).val :=
  dot_S8x256_S512x256_S8x512_1_1_0_0_n_n.rhsIdx_val_of_single rfl j k
/-- Read at `(r, c)` into the zero accumulator it is `∑ₖ lhs[r, k] · rhs[c, k]`. -/
theorem mmM_apply {φ₁ φ₂ : FTy} (lhs : FVec Ideal S8x256 φ₁) (rhs : FVec Ideal S512x256 φ₂) (r : Fin 8) (c : Fin 512) :
    matmul dot_S8x256_S512x256_S8x512_1_1_0_0_n_n none lhs rhs (constant S8x512 .f32 0x00000000#32) (ix2 r c)
      = ∑ k : Fin 256, lhs (ix2 r k) * rhs (ix2 c k) := by
  simp only [matmul]
  rw [Ideal.matmul_constant_zero_apply, ← Equiv.sum_comp (ValueIdx.contrEquiv1 dot_S8x256_S512x256_S8x512_1_1_0_0_n_n 256 rfl rfl).symm]
  refine Finset.sum_congr rfl fun k _ => ?_
  have hk := ValueIdx.contrEquiv1_symm_val dot_S8x256_S512x256_S8x512_1_1_0_0_n_n 256 rfl rfl k
  have el : dot_S8x256_S512x256_S8x512_1_1_0_0_n_n.lhsIdx (ix2 r c) ((ValueIdx.contrEquiv1 dot_S8x256_S512x256_S8x512_1_1_0_0_n_n 256 rfl rfl).symm k) = ix2 r k := funext fun a => Fin.ext (by
    match a with
    | ⟨0, _⟩ => exact mmM_l0 _ _
    | ⟨1, _⟩ => exact (mmM_l1 _ _).trans hk)
  have er : dot_S8x256_S512x256_S8x512_1_1_0_0_n_n.rhsIdx (ix2 r c) ((ValueIdx.contrEquiv1 dot_S8x256_S512x256_S8x512_1_1_0_0_n_n 256 rfl rfl).symm k) = ix2 c k := funext fun a => Fin.ext (by
    match a with
    | ⟨0, _⟩ => exact mmM_r0 _ _
    | ⟨1, _⟩ => exact (mmM_r1 _ _).trans hk)
  rw [el, er]

/-! The dot `dot_S1024x512_S512x512_S1024x512_1_1_0_0_n_n`: rows of the left operand against rows of the right, contracted over the last axis of both. -/
theorem mmO_l0 (j : S1024x512.Idx) (k : dot_S1024x512_S512x512_S1024x512_1_1_0_0_n_n.contr.Idx) : (dot_S1024x512_S512x512_S1024x512_1_1_0_0_n_n.lhsIdx j k 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem mmO_l1 (j : S1024x512.Idx) (k : dot_S1024x512_S512x512_S1024x512_1_1_0_0_n_n.contr.Idx) : (dot_S1024x512_S512x512_S1024x512_1_1_0_0_n_n.lhsIdx j k 1).val = (k ⟨0, by decide⟩).val :=
  dot_S1024x512_S512x512_S1024x512_1_1_0_0_n_n.lhsIdx_val_of_single rfl j k
theorem mmO_r0 (j : S1024x512.Idx) (k : dot_S1024x512_S512x512_S1024x512_1_1_0_0_n_n.contr.Idx) : (dot_S1024x512_S512x512_S1024x512_1_1_0_0_n_n.rhsIdx j k 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem mmO_r1 (j : S1024x512.Idx) (k : dot_S1024x512_S512x512_S1024x512_1_1_0_0_n_n.contr.Idx) : (dot_S1024x512_S512x512_S1024x512_1_1_0_0_n_n.rhsIdx j k 1).val = (k ⟨0, by decide⟩).val :=
  dot_S1024x512_S512x512_S1024x512_1_1_0_0_n_n.rhsIdx_val_of_single rfl j k
/-- Read at `(r, c)` into the zero accumulator it is `∑ₖ lhs[r, k] · rhs[c, k]`. -/
theorem mmO_apply {φ₁ φ₂ : FTy} (lhs : FVec Ideal S1024x512 φ₁) (rhs : FVec Ideal S512x512 φ₂) (r : Fin 1024) (c : Fin 512) :
    matmul dot_S1024x512_S512x512_S1024x512_1_1_0_0_n_n none lhs rhs (constant S1024x512 .f32 0x00000000#32) (ix2 r c)
      = ∑ k : Fin 512, lhs (ix2 r k) * rhs (ix2 c k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 r c) ((ValueIdx.contrEquiv1 dot_S1024x512_S512x512_S1024x512_1_1_0_0_n_n 512 rfl rfl).symm k) = ix2 r k := funext fun a => Fin.ext (by
    match a with
    | ⟨0, _⟩ => exact mmO_l0 _ _
    | ⟨1, _⟩ => exact (mmO_l1 _ _).trans hk)
  have er : dot_S1024x512_S512x512_S1024x512_1_1_0_0_n_n.rhsIdx (ix2 r c) ((ValueIdx.contrEquiv1 dot_S1024x512_S512x512_S1024x512_1_1_0_0_n_n 512 rfl rfl).symm k) = ix2 c k := funext fun a => Fin.ext (by
    match a with
    | ⟨0, _⟩ => exact mmO_r0 _ _
    | ⟨1, _⟩ => exact (mmO_r1 _ _).trans hk)
  rw [el, er]

/-! ## Layout operations read at an index -/

/-- An `[8,128]` block cast to `[8,128,1]` reads, at `(q, p, u)`, the operand at `(q, p)`. -/
theorem cast_qp_qp1_apply {α : Type} (x : S8x128.Idx → α) (h : S8x128.ShapeCasts S8x128x1) (q : Fin 8) (p : Fin 128) (u : Fin 1) :
    shapeCast S8x128x1 x h (ix3 q p u) = x (ix2 q p) :=
  shapeCast_apply x h _ _ (by
    have hu : u.val = 0 := by omega
    rw [Shape.rowMajor_val_three, Shape.rowMajor_val_two]
    show q.val * 128 + p.val = (q.val * 128 + p.val) * 1 + u.val
    omega)

/-- An `[8,128,1]` block broadcast along its last axis to `[8,128,1024]` reads, at `(q, p, n)`, the operand at `(q, p, 0)`. -/
theorem bcast_qp1_qpn_apply {α : Type} (x : S8x128x1.Idx → α) (h : S8x128x1.Broadcasts S8x128x1024) (q : Fin 8) (p : Fin 128) (n : Fin 1024) :
    broadcastTo S8x128x1024 x h (ix3 q p n) = x (ix3 q p (0 : Fin 1)) := by
  refine broadcastTo_apply x h (ix3 q p n) (ix3 q p (0 : Fin 1)) fun ax => ?_
  match ax with
  | ⟨0, _⟩ => show q.val = if (8 : Nat) = 1 then 0 else q.val; rw [if_neg (by decide)]
  | ⟨1, _⟩ => show p.val = if (128 : Nat) = 1 then 0 else p.val; rw [if_neg (by decide)]
  | ⟨2, _⟩ => show (0 : Nat) = if (1 : Nat) = 1 then 0 else n.val; rw [if_pos rfl]

/-- An `[8,128,256]` block cast to `[1024,256]` reads, at row `q·128 + p`, the operand at `(q, p)`. -/
theorem cast_qpd_rd_apply {α : Type} (x : S8x128x256.Idx → α) (h : S8x128x256.ShapeCasts S1024x256) (q : Fin 8) (p : Fin 128) (d : Fin 256)
    (hr : q.val * 128 + p.val < 1024) :
    shapeCast S1024x256 x h (ix2 (⟨q.val * 128 + p.val, hr⟩ : Fin 1024) d) = x (ix3 q p d) :=
  shapeCast_apply x h _ _ (by
    rw [Shape.rowMajor_val_three, Shape.rowMajor_val_two]
    rfl)

/-- An `[8,128,512]` block cast to `[1024,512]` reads, at row `q·128 + p`, the operand at `(q, p)`. -/
theorem cast_qpi_ri_apply {α : Type} (x : S8x128x512.Idx → α) (h : S8x128x512.ShapeCasts S1024x512) (q : Fin 8) (p : Fin 128) (i : Fin 512)
    (hr : q.val * 128 + p.val < 1024) :
    shapeCast S1024x512 x h (ix2 (⟨q.val * 128 + p.val, hr⟩ : Fin 1024) i) = x (ix3 q p i) :=
  shapeCast_apply x h _ _ (by
    rw [Shape.rowMajor_val_three, Shape.rowMajor_val_two]
    rfl)

/-- An `[8,512]` block cast to `[8,1,512]` reads, at `(q, u, i)`, the operand at `(q, i)`. -/
theorem cast_qi_q1i_apply {α : Type} (x : S8x512.Idx → α) (h : S8x512.ShapeCasts S8x1x512) (q : Fin 8) (u : Fin 1) (i : Fin 512) :
    shapeCast S8x1x512 x h (ix3 q u i) = x (ix2 q i) :=
  shapeCast_apply x h _ _ (by
    have hu : u.val = 0 := by omega
    rw [Shape.rowMajor_val_three, Shape.rowMajor_val_two]
    show q.val * 512 + i.val = (q.val * 1 + u.val) * 512 + i.val
    rw [hu, Nat.mul_one, Nat.add_zero])

/-- An `[8,1,512]` block broadcast along its middle axis to `[8,128,512]` reads, at `(q, p, i)`, the operand at `(q, 0, i)`. -/
theorem bcast_q1i_qpi_apply {α : Type} (x : S8x1x512.Idx → α) (h : S8x1x512.Broadcasts S8x128x512) (q : Fin 8) (p : Fin 128) (i : Fin 512) :
    broadcastTo S8x128x512 x h (ix3 q p i) = x (ix3 q (0 : Fin 1) i) := by
  refine broadcastTo_apply x h (ix3 q p i) (ix3 q (0 : Fin 1) i) fun ax => ?_
  match ax with
  | ⟨0, _⟩ => show q.val = if (8 : Nat) = 1 then 0 else q.val; rw [if_neg (by decide)]
  | ⟨1, _⟩ => show (0 : Nat) = if (1 : Nat) = 1 then 0 else p.val; rw [if_pos rfl]
  | ⟨2, _⟩ => show i.val = if (512 : Nat) = 1 then 0 else i.val; rw [if_neg (by decide)]

/-- A `[512]` vector viewed as one row and broadcast over 1024 rows reads, at `(r, i)`, the vector at `i`. -/
theorem bias_apply {α : Type} (x : S512.Idx → α) (h : S512.ShapeCasts S1x512) (h' : S1x512.Broadcasts S1024x512) (r : Fin 1024) (i : Fin 512) :
    broadcastTo S1024x512 (shapeCast S1x512 x h) h' (ix2 r i) = x (ix1 i) :=
  (ValueIdx.broadcastTo_1b_ab_apply _ h' r i).trans (ValueIdx.shapeCast_a_1a_apply x h 0 i)

/-! ## The one-hot weight -/

/-- The comparison bit, widened and converted, is the indicator of equality: the integers `1` and `0` convert exactly. -/
theorem onehot_word (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.2 h]
    show ((((1#1 : BitVec 1).setWidth 32).toInt : ℝ) : EReal) = 1
    rw [show ((1#1 : BitVec 1).setWidth 32).toInt = 1 by decide]
    simp
  · rw [if_neg h, eq_zero_of_ne_one (mt StableHlo.Predicate.cmpi_eq_iff.1 h)]
    show ((((0#1 : BitVec 1).setWidth 32).toInt : ℝ) : EReal) = 0
    rw [show ((0#1 : BitVec 1).setWidth 32).toInt = 0 by decide]
    simp

/-- The one-hot block at `(q, p, n)`: `1` where the position counter `n` (as a word) equals the index word at `(q, p)`, else `0`. -/
theorem onehot_apply (v0 : IVec S8x128 32) (h1 : S8x128.ShapeCasts S8x128) (hi : S8x128x1024.Iotas .tc 32 [2])
    (h3 : S8x128.ShapeCasts S8x128x1) (h4 : S8x128x1.Broadcasts S8x128x1024) (h6 : 1 < 32) (q : Fin 8) (p : Fin 128) (n : Fin 1024) :
    (sitofp .f32 (extui 32 (cmpi .eq (iota .tc S8x128x1024 32 [2] hi)
        (broadcastTo S8x128x1024 (shapeCast S8x128x1 (shapeCast S8x128 v0 h1) h3) h4)) h6) : FVec Ideal S8x128x1024 .f32) (ix3 q p n)
      = if BitVec.ofNat 32 n.val = v0 (ix2 q p) then (1 : EReal) else 0 := by
  show FloatOps.sitofp (F := Ideal) .f32 ((IntOp.cmpi .eq (iota .tc S8x128x1024 32 [2] hi (ix3 q p n))
        (broadcastTo S8x128x1024 (shapeCast S8x128x1 (shapeCast S8x128 v0 h1) h3) h4 (ix3 q p n))).setWidth 32) = _
  rw [onehot_word, iota_single_apply, bcast_qp1_qpn_apply, cast_qp_qp1_apply, shapeCast_self]

/-! ## The three payloads at an index -/

/-- The second layer over any rectified block `Y` and weight block `W`: at `(r, o)` it is `∑ᵢ Y[r, i] · W[o, i] + b2[o]`. -/
theorem pay1_apply (Y : FVec Ideal S1024x512 .bf16) (W : FVec Ideal S512x512 .bf16) (v38 : Vec Ideal S512 .f32) (r : Fin 1024) (o : Fin 512) :
    k0_pay1 (F := Ideal) Y W v38 (constant S1024x512 .f32 0x00000000#32) (ix2 r o)
      = (∑ i : Fin 512, Y (ix2 r i) * W (ix2 o i)) + v38 (ix1 o) := by
  unfold k0_pay1
  refine (add_apply _ _ _).trans ?_
  exact congrArg₂ (· + ·) (mmO_apply Y W r o) (bias_apply v38 _ _ r o)

/-- The rectified first layer at row `q·128 + p`, feature `i`: the gathered half (the one-hot sum against `X`, then against the
    first weight half), plus the molecule half, plus the bias, capped below by the zero word. -/
theorem pay2_apply (v0 : Vec Ideal S8x128 .i32) (v9 : Vec Ideal S8x1024x256 .f32) (v14 : Vec Ideal S8x256 .f32)
    (v16 v19 : Vec Ideal S512x256 .f32) (v28 : Vec Ideal S512 .f32) (q : Fin 8) (p : Fin 128) (i : Fin 512)
    (hr : q.val * 128 + p.val < 1024) :
    k0_pay2 (F := Ideal) v0 v9 v14 v16 v19 v28 (ix2 (⟨q.val * 128 + p.val, hr⟩ : Fin 1024) i)
      = max ((∑ d : Fin 256, (∑ n : Fin 1024, (if BitVec.ofNat 32 n.val = (v0 (ix2 q p) : BitVec 32) then (1 : EReal) else 0) * v9 (ix3 q n d)) * v16 (ix2 i d))
              + (∑ d : Fin 256, v14 (ix2 q d) * v19 (ix2 i d)) + v28 (ix1 i)) Cert.Spec.zero32 := by
  unfold k0_pay2
  refine (trunc_apply _ _ _).trans ?_
  refine (max_apply _ _ _).trans ?_
  refine congrArg₂ max ?_ rfl
  refine (add_apply _ _ _).trans ?_
  refine congrArg₂ (· + ·) ?_ ?_
  · refine (add_apply _ _ _).trans ?_
    refine congrArg₂ (· + ·) ?_ ?_
    · -- the gathered half
      refine (mmT_apply _ _ _ i).trans ?_
      refine Finset.sum_congr rfl fun d _ => congrArg₂ (· * ·) ?_ ?_
      · refine (cast_qpd_rd_apply _ _ q p d hr).trans ?_
        refine (trunc_apply _ _ _).trans ?_
        refine (mmB_apply _ _ q p d).trans ?_
        refine Finset.sum_congr rfl fun n _ => congrArg₂ (· * ·) ?_ rfl
        refine (trunc_apply _ _ _).trans ?_
        exact onehot_apply v0 _ _ _ _ _ q p n
      · refine (trunc_apply _ _ _).trans ?_
        exact congrFun (shapeCast_self v16 _) (ix2 i d)
    · -- the molecule half
      refine (cast_qpi_ri_apply _ _ q p i hr).trans ?_
      refine (bcast_q1i_qpi_apply _ _ q p i).trans ?_
      refine (congrFun (shapeCast_self _ _) _).trans ?_
      refine (cast_qi_q1i_apply _ _ q 0 i).trans ?_
      refine (mmM_apply _ _ q i).trans ?_
      refine Finset.sum_congr rfl fun d _ => congrArg₂ (· * ·) rfl ?_
      refine (trunc_apply _ _ _).trans ?_
      exact congrFun (shapeCast_self v19 _) (ix2 i d)
  · -- the bias
    exact bias_apply v28 _ _ _ i

/-- One output number of the kernel's block is the perceptron's entry, the gathered row written as the one-hot sum. -/
theorem pay_apply (v0 : Vec Ideal S8x128 .i32) (v9 : Vec Ideal S8x1024x256 .f32) (v14 : Vec Ideal S8x256 .f32)
    (v16 v19 : Vec Ideal S512x256 .f32) (v28 : Vec Ideal S512 .f32) (v36 : Vec Ideal S512x512 .f32) (v38 : Vec Ideal S512 .f32)
    (q : Fin 8) (p : Fin 128) (o : Fin 512) :
    k0_pay1 (F := Ideal) (k0_pay2 v0 v9 v14 v16 v19 v28) (k0_pay3 v36) v38 (constant S1024x512 .f32 0x00000000#32)
        (ix2 (⟨q.val * 128 + p.val, by omega⟩ : Fin 1024) o)
      = Cert.Spec.entry
          (fun d => ∑ n : Fin 1024, (if BitVec.ofNat 32 n.val = (v0 (ix2 q p) : BitVec 32) then (1 : EReal) else 0) * v9 (ix3 q n d))
          (fun d => v14 (ix2 q d)) (fun i d => v16 (ix2 i d)) (fun i d => v19 (ix2 i d)) (fun i => v28 (ix1 i))
          (fun o' i => v36 (ix2 o' i)) (fun o' => v38 (ix1 o')) o := by
  refine (pay1_apply _ _ v38 _ o).trans ?_
  unfold Cert.Spec.entry
  refine congrArg₂ (· + ·) (Finset.sum_congr rfl fun i _ => congrArg₂ (· * ·) ?_ rfl) rfl
  exact pay2_apply v0 v9 v14 v16 v19 v28 q p i _

end Cert.KernelIdeal.Payload

end
-- ==== Proof.Blocks.lean ====
/-
  From the kernel's blocks to its result array.

  The grid has 64 points; point `t` handles batch rows `8t … 8t + 7`. Its input blocks are: rows `8t + q` of `X`, of the
  clamped index array and of `molvec` (`q < 8`), and the whole of `W1[:, :256]`, `W1[:, 256:]`, `b1`, `W2`, `b2`; its output
  block is rows `1024 t … 1024 t + 1023` of the [65536, 512] result, block row `128 q + p` being batch row `8t + q`, masked
  position `p`. This module reads each input block at explicit coordinates off the argument arrays, evaluates the clamp on
  an index word that is already in `[0, 1024)`, collapses the one-hot sum to the selected row of `X`, and concludes that
  point `t` writes back block `t` of the specification `Cert.Spec.G`; the 64 blocks tile the array.
-/
import proofs.«413704_j16913581212020_2_alg».proof.Proof.Gen.KernelIdeal.Value
import proofs.«413704_j16913581212020_2_alg».proof.Proof.KernelPayload
import proofs.«413704_j16913581212020_2_alg».proof.Proof.Spec
import Idealize.ShloMosaic.Lib.StableHlo.Run
import Idealize.ShloMosaic.Lib.StableHlo.Predicate
import Idealize.ShloMosaic.Lib.Pipeline.Value
import Idealize.ShloMosaic.PureOps.Ideal

noncomputable section

open scoped BigOperators

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the host prepares before the launch -/

/-- The clamped index array the kernel stages: `min 1023 (max 0 idx)`, word by word, signed. -/
theorem V_idx (c : Dev nD) : V m c main_v0 = minsi (broadcastInDim S512x128 ![] bcast_S_S512x128 (constantI S_ 32 1023#32))
    (maxsi (broadcastInDim S512x128 ![] bcast_S_S512x128 (constantI S_ 32 0#32)) (m ((c : Thread nD τ).loc main_arg2))) := by
  dsimp only [Gen.V]
  simp only [Gen.hostOps0, Gen.hostOps0_1, Gen.hostOps0_2, List.flatten_cons, List.flatten_nil, List.append_nil, List.cons_append, List.nil_append]
  after_results
  rfl

/-- The first 256 columns of `W1`. -/
theorem V_w1a (c : Dev nD) : V m c main_v1 = extractStridedSlice S512x256 ![0, 0] (m ((c : Thread nD τ).loc main_arg3)) slices_S512x512_S512x256_0_0 := by
  dsimp only [Gen.V]
  simp only [Gen.hostOps0, Gen.hostOps0_1, Gen.hostOps0_2, List.flatten_cons, List.flatten_nil, List.append_nil, List.cons_append, List.nil_append]
  after_results

/-- The last 256 columns of `W1`. -/
theorem V_w1b (c : Dev nD) : V m c main_v2 = extractStridedSlice S512x256 ![0, 256] (m ((c : Thread nD τ).loc main_arg3)) slices_S512x512_S512x256_0_256 := by
  dsimp only [Gen.V]
  simp only [Gen.hostOps0, Gen.hostOps0_1, Gen.hostOps0_2, List.flatten_cons, List.flatten_nil, List.append_nil, List.cons_append, List.nil_append]
  after_results

/-- On a word already in `[0, 1024)` the clamp to `[0, 1023]` does nothing. -/
theorem clamp_id {w : BitVec 32} (hw : w.toNat < 1024) : IntOp.minsi 1023#32 (IntOp.maxsi 0#32 w) = w := by
  have hti : w.toInt = w.toNat := Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h1, decide_eq_true_eq] at hc
  all_goals first | rfl | (apply BitVec.eq_of_toNat_eq; simp only [BitVec.toNat_ofNat]; omega)

/-! ## The index maps, decided over the 64 grid points -/

theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each input block, read at explicit coordinates -/

/-- Batch row `8t + q`. -/
abbrev brow (t : Fin cfg0.N) (q : Fin 8) : Fin 512 := ⟨t.val * 8 + q.val, by have ht : t.val < 64 := t.isLt; have := q.isLt; show t.val * 8 + q.val < 512; omega⟩

theorem blkX (c : Dev nD) (t : Fin cfg0.N) (q : Fin 8) (n : Fin 1024) (d : Fin 256) :
    iblk m c 0 t (ix3 q n d) = m ((c : Thread nD τ).loc main_arg0) (ix3 (brow t q) n d) := by
  obtain ⟨e0, e1, e2, -⟩ := idx_facts t
  show V m c main_arg0 (((cfg0.win 0).blk t).view.emb (ix3 q n d)) = _
  rw [V_main_arg0]
  refine congrArg _ (funext fun a => Fin.ext ?_)
  match a with
  | ⟨0, _⟩ => show win0_0.index t (0 : Fin 3) * 8 + 1 * q.val = t.val * 8 + q.val; omega
  | ⟨1, _⟩ => show win0_0.index t (1 : Fin 3) * 1024 + 1 * n.val = n.val; omega
  | ⟨2, _⟩ => show win0_0.index t (2 : Fin 3) * 256 + 1 * d.val = d.val; omega

/-- The staged index word at block position `(q, p)`: the clamp of `idx[8t + q, p]`. -/
theorem blkIdx (c : Dev nD) (t : Fin cfg0.N) (q : Fin 8) (p : Fin 128) :
    (iblk m c 1 t (ix2 q p) : BitVec 32) = IntOp.minsi 1023#32 (IntOp.maxsi 0#32 (m ((c : Thread nD τ).loc main_arg2) (ix2 (brow t q) p))) := by
  obtain ⟨-, -, -, e0, e1, -⟩ := idx_facts t
  show V m c main_v0 (((cfg0.win 1).blk t).view.emb (ix2 q p)) = _
  rw [V_idx]
  show IntOp.minsi 1023#32 (IntOp.maxsi 0#32 (m ((c : Thread nD τ).loc main_arg2) (((cfg0.win 1).blk t).view.emb (ix2 q p)))) = _
  refine congrArg (fun i => IntOp.minsi 1023#32 (IntOp.maxsi 0#32 (m ((c : Thread nD τ).loc main_arg2) i))) (funext fun a => Fin.ext ?_)
  match a with
  | ⟨0, _⟩ => show win0_1.index t (0 : Fin 2) * 8 + 1 * q.val = t.val * 8 + q.val; omega
  | ⟨1, _⟩ => show win0_1.index t (1 : Fin 2) * 128 + 1 * p.val = p.val; omega

theorem blkMol (c : Dev nD) (t : Fin cfg0.N) (q : Fin 8) (d : Fin 256) :
    iblk m c 2 t (ix2 q d) = m ((c : Thread nD τ).loc main_arg1) (ix2 (brow t q) d) := by
  obtain ⟨-, -, -, -, -, e0, e1, -⟩ := idx_facts t
  show V m c main_arg1 (((cfg0.win 2).blk t).view.emb (ix2 q d)) = _
  rw [V_main_arg1]
  refine congrArg _ (funext fun a => Fin.ext ?_)
  match a with
  | ⟨0, _⟩ => show win0_2.index t (0 : Fin 2) * 8 + 1 * q.val = t.val * 8 + q.val; omega
  | ⟨1, _⟩ => show win0_2.index t (1 : Fin 2) * 256 + 1 * d.val = d.val; omega

theorem blkW1a (c : Dev nD) (t : Fin cfg0.N) (i : Fin 512) (d : Fin 256) :
    iblk m c 3 t (ix2 i d) = m ((c : Thread nD τ).loc main_arg3) (ix2 i (Cert.Spec.lo d)) := by
  obtain ⟨-, -, -, -, -, -, -, e0, e1, -⟩ := idx_facts t
  show V m c main_v1 (((cfg0.win 3).blk t).view.emb (ix2 i d)) = _
  rw [V_w1a]
  refine extractStridedSlice_apply _ _ _ _ _ fun a => ?_
  match a with
  | ⟨0, _⟩ => show i.val = 0 + (win0_3.index t (0 : Fin 2) * 512 + 1 * i.val); omega
  | ⟨1, _⟩ => show d.val = 0 + (win0_3.index t (1 : Fin 2) * 256 + 1 * d.val); omega

theorem blkW1b (c : Dev nD) (t : Fin cfg0.N) (i : Fin 512) (d : Fin 256) :
    iblk m c 4 t (ix2 i d) = m ((c : Thread nD τ).loc main_arg3) (ix2 i (Cert.Spec.hi d)) := by
  obtain ⟨-, -, -, -, -, -, -, -, -, e0, e1, -⟩ := idx_facts t
  show V m c main_v2 (((cfg0.win 4).blk t).view.emb (ix2 i d)) = _
  rw [V_w1b]
  refine extractStridedSlice_apply _ _ _ _ _ fun a => ?_
  match a with
  | ⟨0, _⟩ => show i.val = 0 + (win0_4.index t (0 : Fin 2) * 512 + 1 * i.val); omega
  | ⟨1, _⟩ => show 256 + d.val = 256 + (win0_4.index t (1 : Fin 2) * 256 + 1 * d.val); omega

theorem blkB1 (c : Dev nD) (t : Fin cfg0.N) (i : Fin 512) :
    iblk m c 5 t (ix1 i) = m ((c : Thread nD τ).loc main_arg4) (ix1 i) := by
  obtain ⟨-, -, -, -, -, -, -, -, -, -, -, e0, -⟩ := idx_facts t
  show V m c main_arg4 (((cfg0.win 5).blk t).view.emb (ix1 i)) = _
  rw [V_main_arg4]
  refine congrArg _ (funext fun a => Fin.ext ?_)
  match a with
  | ⟨0, _⟩ => show win0_5.index t (0 : Fin 1) * 512 + 1 * i.val = i.val; omega

theorem blkW2 (c : Dev nD) (t : Fin cfg0.N) (o i : Fin 512) :
    iblk m c 6 t (ix2 o i) = m ((c : Thread nD τ).loc main_arg5) (ix2 o i) := by
  obtain ⟨-, -, -, -, -, -, -, -, -, -, -, -, e0, e1, -⟩ := idx_facts t
  show V m c main_arg5 (((cfg0.win 6).blk t).view.emb (ix2 o i)) = _
  rw [V_main_arg5]
  refine congrArg _ (funext fun a => Fin.ext ?_)
  match a with
  | ⟨0, _⟩ => show win0_6.index t (0 : Fin 2) * 512 + 1 * o.val = o.val; omega
  | ⟨1, _⟩ => show win0_6.index t (1 : Fin 2) * 512 + 1 * i.val = i.val; omega

theorem blkB2 (c : Dev nD) (t : Fin cfg0.N) (o : Fin 512) :
    iblk m c 7 t (ix1 o) = m ((c : Thread nD τ).loc main_arg6) (ix1 o) := by
  obtain ⟨-, -, -, -, -, -, -, -, -, -, -, -, -, -, e0, -⟩ := idx_facts t
  show V m c main_arg6 (((cfg0.win 7).blk t).view.emb (ix1 o)) = _
  rw [V_main_arg6]
  refine congrArg _ (funext fun a => Fin.ext ?_)
  match a with
  | ⟨0, _⟩ => show win0_7.index t (0 : Fin 1) * 512 + 1 * o.val = o.val; omega

/-! ## What point `t` writes back -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The kernel's gather: against an index word `w` in `[0, 1024)`, the sum over `n` of `[n = w] · f n` is `f` at row `w`. -/
theorem onehot_word {w : BitVec 32} (hw : w.toNat < 1024) (f : Fin 1024 → EReal) :
    ∑ n : Fin 1024, (if BitVec.ofNat 32 n.val = w then (1 : EReal) else 0) * f n = f (Cert.Spec.row w) := by
  rw [← Cert.Spec.sum_onehot (Cert.Spec.row w) f]
  refine Finset.sum_congr rfl fun n _ => ?_
  have hiff : BitVec.ofNat 32 n.val = w ↔ n = Cert.Spec.row w := by
    constructor
    · intro h
      apply Fin.ext
      rw [Cert.Spec.row_val_of_lt hw, ← h, BitVec.toNat_ofNat]
      have := n.isLt
      omega
    · intro h
      apply BitVec.eq_of_toNat_eq
      rw [BitVec.toNat_ofNat, h, Cert.Spec.row_val_of_lt hw]
      omega
  simp only [hiff]

/-- Result row `1024 t + 128 q + p` is batch row `8t + q`, position `p`. -/
abbrev grow (t : Fin cfg0.N) (q : Fin 8) (p : Fin 128) : Fin 65536 :=
  ⟨t.val * 1024 + (q.val * 128 + p.val), by have ht : t.val < 64 := t.isLt; have := q.isLt; have := p.isLt; show t.val * 1024 + (q.val * 128 + p.val) < 65536; omega⟩

/-- ONE ENTRY of what point `t` computes is the specification's entry at the matching result index. -/
theorem point_eq (c : Dev nD) (hr : ∀ p : S512x128.Idx, (m ((c : Thread nD τ).loc main_arg2) p : BitVec 32).toNat < 1024)
    (t : Fin cfg0.N) (q : Fin 8) (p : Fin 128) (o : Fin 512) :
    k0_pay1 (F := Ideal) (k0_pay2 (iblk m c 1 t) (iblk m c 0 t) (iblk m c 2 t) (iblk m c 3 t) (iblk m c 4 t) (iblk m c 5 t))
        (k0_pay3 (iblk m c 6 t)) (iblk m c 7 t) (constant S1024x512 .f32 0x00000000#32)
        (ix2 (⟨q.val * 128 + p.val, by have := q.isLt; have := p.isLt; omega⟩ : Fin 1024) o)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 (grow t q p) o) := by
  refine (Cert.KernelIdeal.Payload.pay_apply (iblk m c 1 t) (iblk m c 0 t) (iblk m c 2 t) (iblk m c 3 t) (iblk m c 4 t) (iblk m c 5 t)
    (iblk m c 6 t) (iblk m c 7 t) q p o).trans ?_
  have hw := hr (ix2 (brow t q) p)
  have hB : Cert.Spec.rowB (grow t q p) = brow t q := Fin.ext (by
    have := q.isLt; have := p.isLt
    show (t.val * 1024 + (q.val * 128 + p.val)) / 128 = t.val * 8 + q.val; omega)
  have hP : Cert.Spec.rowP (grow t q p) = p := Fin.ext (by
    have := q.isLt; have := p.isLt
    show (t.val * 1024 + (q.val * 128 + p.val)) % 128 = p.val; omega)
  have e1 : (fun d : Fin 256 => ∑ n : Fin 1024, (if BitVec.ofNat 32 n.val = (iblk m c 1 t (ix2 q p) : BitVec 32) then (1 : EReal) else 0) * iblk m c 0 t (ix3 q n d))
      = fun d => m ((c : Thread nD τ).loc main_arg0) (ix3 (brow t q) (Cert.Spec.row (m ((c : Thread nD τ).loc main_arg2) (ix2 (brow t q) p))) d) := by
    funext d
    rw [blkIdx, clamp_id hw]
    simp only [blkX]
    exact onehot_word hw fun n => m ((c : Thread nD τ).loc main_arg0) (ix3 (brow t q) n d)
  have e2 : (fun d : Fin 256 => iblk m c 2 t (ix2 q d)) = fun d => m ((c : Thread nD τ).loc main_arg1) (ix2 (brow t q) d) :=
    funext fun d => blkMol m c t q d
  have e3 : (fun (i : Fin 512) (d : Fin 256) => iblk m c 3 t (ix2 i d)) = fun i d => m ((c : Thread nD τ).loc main_arg3) (ix2 i (Cert.Spec.lo d)) :=
    funext fun i => funext fun d => blkW1a m c t i d
  have e4 : (fun (i : Fin 512) (d : Fin 256) => iblk m c 4 t (ix2 i d)) = fun i d => m ((c : Thread nD τ).loc main_arg3) (ix2 i (Cert.Spec.hi d)) :=
    funext fun i => funext fun d => blkW1b m c t i d
  have e5 : (fun i : Fin 512 => iblk m c 5 t (ix1 i)) = fun i => m ((c : Thread nD τ).loc main_arg4) (ix1 i) :=
    funext fun i => blkB1 m c t i
  have e6 : (fun (o' i : Fin 512) => iblk m c 6 t (ix2 o' i)) = fun o' i => m ((c : Thread nD τ).loc main_arg5) (ix2 o' i) :=
    funext fun o' => funext fun i => blkW2 m c t o' i
  have e7 : (fun o' : Fin 512 => iblk m c 7 t (ix1 o')) = fun o' => m ((c : Thread nD τ).loc main_arg6) (ix1 o') :=
    funext fun o' => blkB2 m c t o'
  rw [e1, e2, e3, e4, e5, e6, e7]
  unfold Cert.Spec.G
  show _ = Cert.Spec.entry
    (fun d => m ((c : Thread nD τ).loc main_arg0) (ix3 (Cert.Spec.rowB (grow t q p)) (Cert.Spec.row (m ((c : Thread nD τ).loc main_arg2) (ix2 (Cert.Spec.rowB (grow t q p)) (Cert.Spec.rowP (grow t q p))))) d))
    (fun d => m ((c : Thread nD τ).loc main_arg1) (ix2 (Cert.Spec.rowB (grow t q p)) d))
    (fun i d => m ((c : Thread nD τ).loc main_arg3) (ix2 i (Cert.Spec.lo d))) (fun i d => m ((c : Thread nD τ).loc main_arg3) (ix2 i (Cert.Spec.hi d)))
    (fun i => m ((c : Thread nD τ).loc main_arg4) (ix1 i)) (fun o' i => m ((c : Thread nD τ).loc main_arg5) (ix2 o' i))
    (fun o' => m ((c : Thread nD τ).loc main_arg6) (ix1 o')) o
  rw [hB, hP]

theorem flushed_eq (c : Dev nD) (hr : ∀ p : S512x128.Idx, (m ((c : Thread nD τ).loc main_arg2) p : BitVec 32).toNat < 1024) (t : Fin cfg0.N) :
    (dats m 0 c).flushed 8 t = ((cfg0.win 8).blk t).view.read (Elt Ideal)
      (Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [Value.flushed8]
  unfold out0_8
  rw [View.canon_unit_zero hz2]
  simp only [View.ld_unit_zero (S := S8x128) hz2, View.ld_unit_zero (S := S8x1024x256) hz3, View.ld_unit_zero (S := S8x256) hz2,
    View.ld_unit_zero (S := S512x256) hz2, View.ld_unit_zero (S := S512) hz1, View.ld_unit_zero (S := S512x512) hz2]
  funext y
  obtain ⟨r, o, rfl⟩ : ∃ (r : Fin 1024) (o : Fin 512), y = ix2 r o := ⟨y 0, y 1, eq_ix2 y⟩
  obtain ⟨q, p, rfl⟩ : ∃ (q : Fin 8) (p : Fin 128), r = ⟨q.val * 128 + p.val, by have := q.isLt; have := p.isLt; omega⟩ :=
    ⟨⟨r.val / 128, by have := r.isLt; omega⟩, ⟨r.val % 128, Nat.mod_lt _ (by decide)⟩, Fin.ext (by show r.val = r.val / 128 * 128 + r.val % 128; omega)⟩
  obtain ⟨-, -, -, -, -, -, -, -, -, -, -, -, -, -, -, e0, e1⟩ := idx_facts t
  refine (point_eq m c hr t q p o).trans ?_
  rw [View.read_apply]
  refine congrArg _ (funext fun a => Fin.ext ?_)
  match a with
  | ⟨0, _⟩ => show t.val * 1024 + (q.val * 128 + p.val) = win0_8.index t (0 : Fin 2) * 1024 + 1 * (q.val * 128 + p.val); omega
  | ⟨1, _⟩ => show o.val = win0_8.index t (1 : Fin 2) * 512 + 1 * o.val; omega

/-! ## The 64 blocks tile the result -/

/-- An index of the result is in point `t`'s block iff each coordinate is in the block's range on its axis. -/
theorem mem_blk (t : Fin cfg0.N) (i : S65536x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v3).slice (win0_8.rect t)).set ↔ _
  rw [View.set_slice_whole, Rect.mem_set_unit]
  exact Iff.rfl

/-- Row `r` of the result lies in the block of point `r / 1024`. -/
theorem cover (i : S65536x512.Idx) : ∃ t : Fin cfg0.N, (cfg0.win 8).flush t = true ∧ i ∈ ((cfg0.win 8).blk t).view.set := by
  have hi0 : (i 0).val < 65536 := (i 0).isLt
  have hi1 : (i 1).val < 512 := (i 1).isLt
  let t : Fin cfg0.N := ⟨(i 0).val / 1024, by show (i 0).val / 1024 < 64; omega⟩
  obtain ⟨-, -, -, -, -, -, -, -, -, -, -, -, -, -, -, e0, e1⟩ := idx_facts t
  refine ⟨t, flush0_8 t, ?_⟩
  rw [mem_blk]
  intro a
  have ht : t.val = (i 0).val / 1024 := rfl
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- THE RESULT ARRAY after the run is the specification of the argument arrays. -/
theorem final (c : Dev nD) (hr : ∀ p : S512x128.Idx, (m ((c : Thread nD τ).loc main_arg2) p : BitVec 32).toNat < 1024) :
    (dats m 0 c).arrAt 8 cfg0.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (dats m 0 c).arrAt_eq_of_cover 8 _ (fun t _ => flushed_eq m c hr t) cover

end Cert.KernelIdeal.Blocks

end
-- ==== Proof.RefValue.lean ====
/-
  THE REFERENCE'S RESULT IS THE SPECIFICATION. Read index by index: result row r, column o of the reshaped array is position
  (b, p, o) = (r / 128, r % 128, o) of fc2's output, `∑ᵢ h(b, p, i) · W2[o, i] + b2[o]`, where the hidden unit
  `h(b, p, i) = max (∑ₖ row(b, p, k) · W1[i, k] + b1[i]) 0` and `row(b, p, ·)` is the 512-long join of the gathered row
  `X[b, idx[b, p], ·]` and the molecule row `molvec[b, ·]`. The 512-long sum splits into its two 256-long halves.

  The gathered half is where the range hypothesis `idx[b, p] < 1024` (as an unsigned word) is used: such a word is non-negative as a
  signed word, so the wrap of negative indices `select (w < 0) (w + 1024) w` leaves it alone, the in-range test
  `0 ≤ w ∧ w ≤ 1023` is 1 everywhere (hence so is its `and` along the unit axis, and the fill value is never selected), and the
  gather's own clamp of the signed start index into [0, 1023] is `min w 1023`.
-/
import proofs.«413704_j16913581212020_2_alg».proof.Proof.RefRead
import proofs.«413704_j16913581212020_2_alg».proof.Proof.Spec
import Idealize.ShloMosaic.Lib.StableHlo.Predicate
import Idealize.ShloMosaic.Lib.ReduceAll

noncomputable section

open scoped BigOperators

namespace Cert.ReferenceIdeal.RefValue

open Cert.ReferenceIdeal Cert.ReferenceIdeal.Gen Cert.ReferenceIdeal.ReadP Idealize.ShloMosaic Idealize.ShloMosaic.ValueIdx

/-- The index word at position (b, p, 0) of the widened index array, once negative words have been wrapped: under the range
    hypothesis no word is negative, so the wrap never fires and the word is the argument's own. -/
theorem word_apply (x2 : (⟨S512x128, .i32⟩ : BufTy).Contents (Elt Ideal)) (hr : ∀ p : S512x128.Idx, (x2 p : BitVec 32).toNat < 1024)
    (i : S512x128x1.Idx) : val_main_call0_v4 (F := Ideal) x2 i = x2 (idx_main_v0 i) := by
  rw [val_main_call0_v4_apply, val_main_call0_v1_apply, val_main_v0_apply, val_main_call0_v0_apply, val_main_call0_c_apply]
  have hw := hr (idx_main_v0 i)
  have hz : IntOp.cmpi .slt (x2 (idx_main_v0 i) : BitVec 32) 0#32 = 0#1 := by
    refine eq_zero_of_ne_one fun h => ?_
    have := (StableHlo.Predicate.slt_iff_toNat (a := x2 (idx_main_v0 i)) (b := 0#32) (by omega) (by decide)).1 h
    have h0 : (0#32 : BitVec 32).toNat = 0 := rfl
    omega
  rw [hz, select_zero]

/-- The in-range test `0 ≤ w ∧ w ≤ 1023` holds at every position. -/
theorem mask_apply (x2 : (⟨S512x128, .i32⟩ : BufTy).Contents (Elt Ideal)) (hr : ∀ p : S512x128.Idx, (x2 p : BitVec 32).toNat < 1024)
    (i : S512x128x1.Idx) : val_main_call0_v10 (F := Ideal) x2 i = 1#1 := by
  rw [val_main_call0_v10_apply, val_main_call0_v6_apply, val_main_call0_v9_apply, word_apply x2 hr, val_main_call0_v5_apply,
    val_main_call0_c_2_apply, val_main_call0_v8_apply, val_main_call0_v7_apply, val_main_call0_c_1_apply]
  have hw := hr (idx_main_v0 i)
  have h1 : IntOp.cmpi .sge (x2 (idx_main_v0 i) : BitVec 32) 0#32 = 1#1 :=
    (StableHlo.Predicate.sge_iff_toNat (a := x2 (idx_main_v0 i)) (b := 0#32) (by omega) (by decide)).2 (Nat.zero_le _)
  have h2 : IntOp.cmpi .sle (x2 (idx_main_v0 i) : BitVec 32) 1023#32 = 1#1 :=
    (StableHlo.Predicate.sle_iff_toNat (a := x2 (idx_main_v0 i)) (b := 1023#32) (by omega) (by decide)).2
      (by show _ ≤ 1023; omega)
  rw [h1, h2]; rfl

/-- A left fold by `and` from 1 over a list of 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from rfl]
    exact foldl_andi_ones f hf l

/-- The in-range mask reduced by `and` along its unit axis is 1 at every (b, p). -/
theorem all_apply (x2 : (⟨S512x128, .i32⟩ : BufTy).Contents (Elt Ideal)) (hr : ∀ p : S512x128.Idx, (x2 p : BitVec 32).toNat < 1024)
    (q : S512x128.Idx) : val_main_call0_v11 (F := Ideal) x2 q = 1#1 := by
  unfold val_main_call0_v11
  rw [Host.reduce_eq_foldl]
  exact foldl_andi_ones _ (mask_apply x2 hr) _

/-- The start-indices position (b, p, 0). -/
abbrev wordIdx (b : Fin 512) (p : Fin 128) : S512x128x1.Idx := ix3 b p (⟨0, Nat.one_pos⟩ : Fin 1)

/-- THE GATHER READ AT (b, p, d): batch row b of the operand, the row the start word at (b, p, 0) names (read signed, clamped
    into [0, 1023]), column d. Axis 0 is a batching axis (its coordinate is the result's), axis 1 is the one collapsed axis the start
    index addresses, axis 2 is the offset axis carried whole. -/
theorem gather_apply {α : Type} (x : S512x1024x256.Idx → α) (idx : IVec S512x128x1 32) (b : Fin 512) (p : Fin 128) (d : Fin 256) :
    Host.gather gather_S512x1024x256_S512x128x1_S512x128x256_2_1_0_0_1_2_11256 x idx (ix3 b p d)
      = x (ix3 b (⟨min (idx (wordIdx b p)).toInt.toNat 1023, by omega⟩ : Fin 1024) d) := by
  unfold Host.gather
  congr 1
  funext a
  refine Fin.ext ?_
  have hsi : gather_S512x1024x256_S512x128x1_S512x128x256_2_1_0_0_1_2_11256.siIdx (ix3 b p d)
      ⟨List.idxOf (1 : Fin 3) gather_S512x1024x256_S512x128x1_S512x128x256_2_1_0_0_1_2_11256.startIndexMap,
        List.idxOf_lt_length_iff.2 (List.mem_singleton.mpr rfl)⟩ = wordIdx b p := by
    funext c; refine Fin.ext ?_
    match c with
    | ⟨0, _⟩ => rfl
    | ⟨1, _⟩ => rfl
    | ⟨2, _⟩ => rfl
  match a with
  | ⟨0, _⟩ =>
    show gather_S512x1024x256_S512x128x1_S512x128x256_2_1_0_0_1_2_11256.start (ix3 b p d) idx 0
      + gather_S512x1024x256_S512x128x1_S512x128x256_2_1_0_0_1_2_11256.batchCoord (ix3 b p d) 0
      + gather_S512x1024x256_S512x128x1_S512x128x256_2_1_0_0_1_2_11256.offCoord (ix3 b p d) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show gather_S512x1024x256_S512x128x1_S512x128x256_2_1_0_0_1_2_11256.start (ix3 b p d) idx 1
      + gather_S512x1024x256_S512x128x1_S512x128x256_2_1_0_0_1_2_11256.batchCoord (ix3 b p d) 1
      + gather_S512x1024x256_S512x128x1_S512x128x256_2_1_0_0_1_2_11256.offCoord (ix3 b p d) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S512x1024x256_S512x128x1_S512x128x256_2_1_0_0_1_2_11256.startIndexMap from List.mem_singleton.mpr rfl), hsi]
    rfl
  | ⟨2, _⟩ =>
    show gather_S512x1024x256_S512x128x1_S512x128x256_2_1_0_0_1_2_11256.start (ix3 b p d) idx 2
      + gather_S512x1024x256_S512x128x1_S512x128x256_2_1_0_0_1_2_11256.batchCoord (ix3 b p d) 2
      + gather_S512x1024x256_S512x128x1_S512x128x256_2_1_0_0_1_2_11256.offCoord (ix3 b p d) 2 = d.val
    rw [GatherDims.batchCoord_eq_zero _ _ _ (by decide)]
    unfold GatherDims.start
    rw [dif_neg (by decide)]
    simp only [Nat.add_zero, Nat.zero_add]
    rfl

/-- The widened index array's position (b, p, 0) reads the argument at (b, p). -/
theorem idx_word (b : Fin 512) (p : Fin 128) : idx_main_v0 (wordIdx b p) = ix2 b p :=
  funext fun a => match a with | ⟨0, _⟩ => rfl | ⟨1, _⟩ => rfl

/-- THE GATHERED HALF: take_along_axis at (b, p, d) is `X[b, idx[b, p], d]`. The in-range mask is 1, so the fill value is never
    selected; the start word is non-negative, so reading it signed and clamping it gives `Spec.row` of it. -/
theorem taken_apply (x0 : (⟨S512x1024x256, .f32⟩ : BufTy).Contents (Elt Ideal)) (x2 : (⟨S512x128, .i32⟩ : BufTy).Contents (Elt Ideal))
    (hr : ∀ p : S512x128.Idx, (x2 p : BitVec 32).toNat < 1024) (b : Fin 512) (p : Fin 128) (d : Fin 256) :
    val_main_v1 (F := Ideal) x0 x2 (ix3 b p d) = x0 (ix3 b (Cert.Spec.row (x2 (ix2 b p))) d) := by
  rw [val_main_v1_apply, val_main_call0_v13_apply, all_apply x2 hr, select_one]
  unfold val_main_call0_v12
  refine (gather_apply x0 _ b p d).trans ?_
  have hrow : (⟨min (val_main_call0_v4 (F := Ideal) x2 (wordIdx b p) : BitVec 32).toInt.toNat 1023, by omega⟩ : Fin 1024)
      = Cert.Spec.row (x2 (ix2 b p)) := by
    refine Fin.ext ?_
    show min (val_main_call0_v4 (F := Ideal) x2 (wordIdx b p) : BitVec 32).toInt.toNat 1023 = min (x2 (ix2 b p) : BitVec 32).toNat 1023
    rw [word_apply x2 hr, idx_word, StableHlo.Predicate.toInt_eq_toNat_of_lt (by have := hr (ix2 b p); omega), Int.toNat_natCast]
  rw [hrow]

/-- THE MOLECULE HALF: the molecule vector broadcast over the positions reads `molvec[b, d]` at (b, p, d). -/
theorem mol_apply (x1 : (⟨S512x256, .f32⟩ : BufTy).Contents (Elt Ideal)) (b : Fin 512) (p : Fin 128) (d : Fin 256) :
    val_main_v3 (F := Ideal) x1 (ix3 b p d) = x1 (ix2 b d) := by
  rw [val_main_v3_apply, val_main_v2_apply]
  exact congrArg x1 (funext fun a => match a with | ⟨0, _⟩ => rfl | ⟨1, _⟩ => rfl)

/-- The joined row's first 256 columns are the gathered row … -/
theorem cat_lo (x0 : (⟨S512x1024x256, .f32⟩ : BufTy).Contents (Elt Ideal)) (x1 : (⟨S512x256, .f32⟩ : BufTy).Contents (Elt Ideal))
    (x2 : (⟨S512x128, .i32⟩ : BufTy).Contents (Elt Ideal)) (b : Fin 512) (p : Fin 128) (d : Fin 256) :
    val_main_v4 (F := Ideal) x0 x1 x2 (ix3 b p (Cert.Spec.lo d)) = val_main_v1 (F := Ideal) x0 x2 (ix3 b p d) := by
  unfold val_main_v4
  generalize val_main_v1 (F := Ideal) x0 x2 = y1
  generalize val_main_v3 (F := Ideal) x1 = y3
  exact concatenate_pair_apply_left (2 : Fin 3) y1 y3 concatenates_S512x128x256_S512x128x256_S512x128x512_d2
    (ix3 b p (Cert.Spec.lo d)) rfl (ix3 b p d) (fun c => match c with | ⟨0, _⟩ => rfl | ⟨1, _⟩ => rfl | ⟨2, _⟩ => rfl)

/-- … and its last 256 the molecule row. -/
theorem cat_hi (x0 : (⟨S512x1024x256, .f32⟩ : BufTy).Contents (Elt Ideal)) (x1 : (⟨S512x256, .f32⟩ : BufTy).Contents (Elt Ideal))
    (x2 : (⟨S512x128, .i32⟩ : BufTy).Contents (Elt Ideal)) (b : Fin 512) (p : Fin 128) (d : Fin 256) :
    val_main_v4 (F := Ideal) x0 x1 x2 (ix3 b p (Cert.Spec.hi d)) = val_main_v3 (F := Ideal) x1 (ix3 b p d) := by
  unfold val_main_v4
  generalize val_main_v1 (F := Ideal) x0 x2 = y1
  generalize val_main_v3 (F := Ideal) x1 = y3
  exact concatenate_pair_apply_right (2 : Fin 3) y1 y3 concatenates_S512x128x256_S512x128x256_S512x128x512_d2
    (ix3 b p (Cert.Spec.hi d)) rfl rfl (ix3 b p d)
    (fun c hc => match c, hc with | ⟨0, _⟩, _ => rfl | ⟨1, _⟩, _ => rfl | ⟨2, _⟩, hc => absurd rfl hc)
    (by show d.val + 256 = 256 + d.val; omega)

/-- ONE HIDDEN UNIT: fc1's 512-long inner product over the joined row, split into its gathered and molecule halves, plus the
    bias, rectified against the zero word. -/
theorem hidden_apply (x0 : (⟨S512x1024x256, .f32⟩ : BufTy).Contents (Elt Ideal)) (x1 : (⟨S512x256, .f32⟩ : BufTy).Contents (Elt Ideal))
    (x2 : (⟨S512x128, .i32⟩ : BufTy).Contents (Elt Ideal)) (x3 : (⟨S512x512, .f32⟩ : BufTy).Contents (Elt Ideal))
    (x4 : (⟨S512, .f32⟩ : BufTy).Contents (Elt Ideal)) (hr : ∀ p : S512x128.Idx, (x2 p : BitVec 32).toNat < 1024)
    (b : Fin 512) (p : Fin 128) (i : Fin 512) :
    val_main_v9 (F := Ideal) x0 x1 x2 x3 x4 (ix3 b p i)
      = max ((∑ d : Fin 256, x0 (ix3 b (Cert.Spec.row (x2 (ix2 b p))) d) * x3 (ix2 i (Cert.Spec.lo d)))
          + (∑ d : Fin 256, x1 (ix2 b d) * x3 (ix2 i (Cert.Spec.hi d))) + x4 (ix1 i)) Cert.Spec.zero32 := by
  rw [val_main_v9_apply, val_main_v8_apply, val_main_v5_apply, val_main_v7_apply, val_main_v6_apply, val_main_call1_v0_apply,
    val_main_call1_cst_apply, Cert.Spec.sum_halves]
  refine congrArg₂ max (congrArg₂ (· + ·) (congrArg₂ (· + ·) (Finset.sum_congr rfl fun d _ => ?_) (Finset.sum_congr rfl fun d _ => ?_)) ?_) rfl
  · have el : lidx_main_v5 (ix3 b p i) (Cert.Spec.lo d) = ix3 b p (Cert.Spec.lo d) :=
      funext fun a => match a with | ⟨0, _⟩ => rfl | ⟨1, _⟩ => rfl | ⟨2, _⟩ => rfl
    have er : ridx_main_v5 (ix3 b p i) (Cert.Spec.lo d) = ix2 i (Cert.Spec.lo d) :=
      funext fun a => match a with | ⟨0, _⟩ => rfl | ⟨1, _⟩ => rfl
    rw [el, er, cat_lo, taken_apply x0 x2 hr]
  · have el : lidx_main_v5 (ix3 b p i) (Cert.Spec.hi d) = ix3 b p (Cert.Spec.hi d) :=
      funext fun a => match a with | ⟨0, _⟩ => rfl | ⟨1, _⟩ => rfl | ⟨2, _⟩ => rfl
    have er : ridx_main_v5 (ix3 b p i) (Cert.Spec.hi d) = ix2 i (Cert.Spec.hi d) :=
      funext fun a => match a with | ⟨0, _⟩ => rfl | ⟨1, _⟩ => rfl
    rw [el, er, cat_hi, mol_apply]
  · exact congrArg x4 (funext fun a => match a with | ⟨0, _⟩ => rfl)

/-- Result row r, column o of the reshaped [65536, 512] array is position (r / 128, r % 128, o) of the [512, 128, 512] one. -/
theorem idx_reshape (r : Fin 65536) (o : Fin 512) : idx_main_v14 (ix2 r o) = ix3 (Cert.Spec.rowB r) (Cert.Spec.rowP r) o := by
  have hr := r.isLt
  have ho := o.isLt
  funext a
  refine Fin.ext ?_
  match a with
  | ⟨0, _⟩ => show (r.val * 512 + o.val) / 65536 = r.val / 128; omega
  | ⟨1, _⟩ => show (r.val * 512 + o.val) / 512 % 128 = r.val % 128; omega
  | ⟨2, _⟩ => show (r.val * 512 + o.val) % 512 = o.val; omega

theorem ref_eq (x0 : (⟨S512x1024x256, .f32⟩ : BufTy).Contents (Elt Ideal)) (x1 : (⟨S512x256, .f32⟩ : BufTy).Contents (Elt Ideal))
    (x2 : (⟨S512x128, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (hr : ∀ p : S512x128.Idx, (x2 p : BitVec 32).toNat < 1024) :
    val_main_v14 (F := Ideal) x0 x1 x2 x3 x4 x5 x6 = Cert.Spec.G x0 x1 x2 x3 x4 x5 x6 := by
  funext j
  obtain ⟨r, o, rfl⟩ : ∃ r o, j = ix2 r o := ⟨j 0, j 1, eq_ix2 j⟩
  rw [val_main_v14_apply, idx_reshape, val_main_v13_apply, val_main_v10_apply, val_main_v12_apply, val_main_v11_apply]
  show _ = Cert.Spec.entry _ _ _ _ _ _ _ o
  unfold Cert.Spec.entry
  refine congrArg₂ (· + ·) (Finset.sum_congr rfl fun i _ => ?_) ?_
  · have el : lidx_main_v10 (ix3 (Cert.Spec.rowB r) (Cert.Spec.rowP r) o) i = ix3 (Cert.Spec.rowB r) (Cert.Spec.rowP r) i :=
      funext fun a => match a with | ⟨0, _⟩ => rfl | ⟨1, _⟩ => rfl | ⟨2, _⟩ => rfl
    have er : ridx_main_v10 (ix3 (Cert.Spec.rowB r) (Cert.Spec.rowP r) o) i = ix2 o i :=
      funext fun a => match a with | ⟨0, _⟩ => rfl | ⟨1, _⟩ => rfl
    rw [el, er, hidden_apply x0 x1 x2 x3 x4 hr]
  · exact congrArg x6 (funext fun a => match a with | ⟨0, _⟩ => rfl)

end Cert.ReferenceIdeal.RefValue

end
-- ==== Proof.lean ====
/-
  The certificate of a fused gather + two-layer perceptron kernel against its jnp reference, over the extended reals.

  For batch row `b` and masked position `p` the operator takes row `idx[b, p]` of `X[b]` (256 numbers), joins `molvec[b]`
  (256 numbers), and applies `fc1` (`W1` 512 × 512, bias `b1`), the rectifier, and `fc2` (`W2`, `b2`); the result is laid out
  as [65536, 512], row `128 b + p`. The kernel gathers by a one-hot matrix product over the clamped index and computes `fc1` as
  the sum of two 256-long products (the gathered half, and the molecule half once per batch row); the reference gathers with
  `take_along_axis` — negative indices wrapped, out-of-range reads filled with a not-a-number — and computes `fc1` as one
  512-long product over the joined row. With every index in `[0, 1024)`, which the precondition states, clamp, wrap and fill all
  do nothing, the one-hot sum is the selected row (`0 · x = 0` and `1 · x = x` on all of the extended reals), and a 512-long sum
  is the sum of its halves: both programs compute `Cert.Spec.G` (Proof/Spec.lean). No finiteness of the float inputs is used.

  Proof/Range.lean reads the index range off the precondition; Proof/KernelPayload.lean reads the kernel body's arithmetic at
  an index; Proof/Blocks.lean goes from the 64 grid points' blocks to the result array; Proof/RefValue.lean reads the
  reference's stages at an index. The frames are the generated ones; the ideal pass rewrote nothing, so `preserves` is `True`.
-/
import proofs.«413704_j16913581212020_2_alg».proof.Defs
import proofs.«413704_j16913581212020_2_alg».proof.Proof.Gen.Kernel
import proofs.«413704_j16913581212020_2_alg».proof.Proof.Gen.Kernel.Skeleton
import proofs.«413704_j16913581212020_2_alg».proof.Proof.Gen.Kernel.Launch
import proofs.«413704_j16913581212020_2_alg».proof.Proof.Gen.Kernel.Points
import proofs.«413704_j16913581212020_2_alg».proof.Proof.Gen.Kernel.Frame
import proofs.«413704_j16913581212020_2_alg».proof.Proof.Gen.KernelIdeal
import proofs.«413704_j16913581212020_2_alg».proof.Proof.Gen.KernelIdeal.Skeleton
import proofs.«413704_j16913581212020_2_alg».proof.Proof.Gen.KernelIdeal.Launch
import proofs.«413704_j16913581212020_2_alg».proof.Proof.Gen.KernelIdeal.Points
import proofs.«413704_j16913581212020_2_alg».proof.Proof.Gen.KernelIdeal.Frame
import proofs.«413704_j16913581212020_2_alg».proof.Proof.Gen.ReferenceIdeal
import proofs.«413704_j16913581212020_2_alg».proof.Proof.Gen.Pre_finite_inputs
import proofs.«413704_j16913581212020_2_alg».proof.Proof.Gen.KernelIdeal.Value
import proofs.«413704_j16913581212020_2_alg».proof.Proof.RefRun
import proofs.«413704_j16913581212020_2_alg».proof.Proof.RefRead
import proofs.«413704_j16913581212020_2_alg».proof.Proof.Spec
import proofs.«413704_j16913581212020_2_alg».proof.Proof.Range
import proofs.«413704_j16913581212020_2_alg».proof.Proof.Blocks
import proofs.«413704_j16913581212020_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation of the kernel. -/
theorem preserves : Cert.preserves_Kernel_KernelIdeal := trivial

/-- Both idealized programs end with the result array at `Cert.Spec.G` of the (agreeing) argument arrays. -/
theorem algebraic : Cert.algebraic_KernelIdeal_ReferenceIdeal := by
  intro m ρ m' ρ' hpre hagree
  have hr : ∀ (c : Dev Cert.KernelIdeal.nD) (p : Cert.KernelIdeal.S512x128.Idx),
      (m ((c.tc : Thread Cert.KernelIdeal.nD Cert.KernelIdeal.τ).loc Cert.KernelIdeal.main_arg2) p : BitVec 32).toNat < 1024 :=
    fun c p => Cert.Pre_finite_inputs.Range.idx_lt _ _ _ _ _ _ _ (hpre c) p
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Blocks.final m c (hr c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v14_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.ref_eq _ _ _ _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
